-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S32000x2048 : Shape := ⟨2, ![32000, 2048]⟩
abbrev S8192 : Shape := ⟨1, ![8192]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v8 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v8 main_v17
  main_v18

def fn {F : FTy → Type} [FloatOps F] (main_arg0 : FVec F S8192x2048 .f32) (main_arg1 : FVec F S32000x2048 .f32) (main_arg2 : IVec S8192 32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S32000x2048 .f32 := Host.absf main_arg1
  let main_cst_0 : FVec F S_ .f32 := constant S_ .f32 0x7F800000#32
  let main_v5 : FVec F S32000x2048 .f32 := broadcastInDim S32000x2048 ![] bcast_S_S32000x2048 main_cst_0
  let main_v6 : IVec S32000x2048 1 := cmpf .olt main_v4 main_v5
  let main_c_1 : IVec S_ 1 := constantI S_ 1 1#1
  let main_v7 : IVec S_ 1 := (fun x v => Host.reduce IntOp.andi x v reducesTo_S32000x2048_S_d0_1 h_S_) main_v6 main_c_1
  let main_v8 : IVec S_ 1 := andi main_v3 main_v7
  let main_c_2 : IVec S_ 32 := constantI S_ 32 4294967196#32
  let main_v9 : IVec S8192 32 := broadcastInDim S8192 ![] bcast_S_S8192 main_c_2
  let main_v10 : IVec S8192 1 := cmpi .eq main_arg2 main_v9
  let main_c_3 : IVec S_ 32 := constantI S_ 32 0#32
  let main_v11 : IVec S8192 32 := broadcastInDim S8192 ![] bcast_S_S8192 main_c_3
  let main_v12 : IVec S8192 1 := cmpi .sge main_arg2 main_v11
  let main_c_4 : IVec S_ 32 := constantI S_ 32 32000#32
  let main_v13 : IVec S8192 32 := broadcastInDim S8192 ![] bcast_S_S8192 main_c_4
  let main_v14 : IVec S8192 1 := cmpi .slt main_arg2 main_v13
  let main_v15 : IVec S8192 1 := andi main_v12 main_v14
  let main_v16 : IVec S8192 1 := ori main_v10 main_v15
  fn_part1 (F := F) main_v8 main_v16
-- ==== Kernel.lean ====
abbrev S8192x2048 : Shape := ⟨2, ![8192, 2048]⟩
abbrev S32000x2048 : Shape := ⟨2, ![32000, 2048]⟩
abbrev S8192 : Shape := ⟨1, ![8192]⟩
abbrev S8192x1 : Shape := ⟨2, ![8192, 1]⟩
abbrev S2048x2048 : Shape := ⟨2, ![2048, 2048]⟩
abbrev S256x2048 : Shape := ⟨2, ![256, 2048]⟩
abbrev S2048x1 : Shape := ⟨2, ![2048, 1]⟩
abbrev S2048x256 : Shape := ⟨2, ![2048, 256]⟩
abbrev S2048 : Shape := ⟨1, ![2048]⟩
abbrev S_ : Shape := ⟨0, ![]⟩

abbrev nBuf : Space → Nat
  | .hbm => 23
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S32000x2048, .f32⟩
  | .hbm, ⟨2, _⟩ => ⟨S8192, .i32⟩
  | .hbm, ⟨3, _⟩ => ⟨S8192x2048, .bf16⟩
  | .hbm, ⟨4, _⟩ => ⟨S8192x1, .i32⟩
  | .hbm, ⟨5, _⟩ => ⟨S8192x1, .f32⟩
  | .hbm, ⟨6, _⟩ => ⟨S8192x1, .f32⟩
  | .hbm, ⟨7, _⟩ => ⟨S8192, .f32⟩
  | .hbm, ⟨8, _⟩ => ⟨S8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8192, .f32⟩
  | .hbm, ⟨13, _⟩ => ⟨S8192, .i1⟩
  | .hbm, ⟨14, _⟩ => ⟨S_, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S2048x2048, .bf16⟩
  | .local _ .vmem, ⟨1, _⟩ => ⟨S2048x2048, .bf16⟩
  | .local _ .vmem, ⟨2, _⟩ => ⟨S256x2048, .f32⟩
  | .local _ .vmem, ⟨3, _⟩ => ⟨S256x2048, .f32⟩
  | .local _ .vmem, ⟨4, _⟩ => ⟨S2048x1, .i32⟩
  | .local _ .vmem, ⟨5, _⟩ => ⟨S2048x1, .i32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | .local _ .vmem, ⟨11, _⟩ => ⟨S2048x1, .f32⟩
  | .local _ .vmem, ⟨12, _⟩ => ⟨S2048x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 125], ![false, false]⟩

def k0_cond2 (i : grid0.Coords) : BitVec 1 :=
  let arg1 : BitVec 32 := BitVec.ofNat 32 (i 1).val
  let c124_i32 : BitVec 32 := 124#32
  let v46 : BitVec 1 := Scalar.cmpi .eq arg1 c124_i32
  let v47 : BitVec 32 := Scalar.extui v46
  let c0_i32_24 : BitVec 32 := 0#32
  let v48 : BitVec 1 := Scalar.cmpi .ne v47 c0_i32_24
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  shapeCasts_S8192_S8192x1 : S8192.ShapeCasts S8192x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S256x2048_S256x2048_0_0 : ∀ a, (![0, 0] : Fin 2 → Nat) a + S256x2048.size a ≤ S256x2048.size a
  h_S256x2048 : 0 < S256x2048.numel
  iota_S2048x256_d1_w32 : S2048x256.Iotas .tc 32 [1]
  broadcasts_S2048x1_S2048x256 : S2048x1.Broadcasts S2048x256
  reduces_S2048x256_S2048 : S2048x256.Reduces [1] S2048
  shapeCasts_S2048_S2048x1 : S2048.ShapeCasts S2048x1
  natLt_1_32 : 1 < 32
  shapeCasts_S8192x1_S8192 : S8192x1.ShapeCasts S8192
  reducesTo_S8192_S_d0 : S8192.ReducesTo [0] S_
  h_S_ : 0 < S_.numel
  bcast_S_S8192 : S_.BroadcastsInDim S8192 (![] : Fin 0 → Fin S8192.rank)
  dot_S2048x2048_S256x2048_S2048x256_1_1_0_0_n_n_wf : DotDims.WF S2048x2048 S256x2048 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x2048.size a
  hwx0_0 : ∀ i : grid0.Coords, EltTy.bits .bf16 = 32 ∨ (Rect.block (s := S8192x2048) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S32000x2048.size a
  hwx0_1 : ∀ i : grid0.Coords, EltTy.bits .f32 = 32 ∨ (Rect.block (s := S32000x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .i32 = 32 ∨ (Rect.block (s := S8192x1) S2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S8192x1.size a
  hwx0_3 : ∀ i : grid0.Coords, EltTy.bits .f32 = 32 ∨ (Rect.block (s := S8192x1) S2048x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S8192x1.size a
  hwx0_4 : ∀ i : grid0.Coords, EltTy.bits .f32 = 32 ∨ (Rect.block (s := S8192x1) S2048x1.size (cc0_transform_4 i) (hinb0_4 i)).WholeWords (EltTy.packing .f32)

variable [Facts₀]

def dot_S2048x2048_S256x2048_S2048x256_1_1_0_0_n_n : DotDims S2048x2048 S256x2048 S2048x256 where
  lhsContracting := [1]
  rhsContracting := [1]
  lhsNonContracting := [0]
  rhsNonContracting := [0]
  lhsBatch := []
  rhsBatch := []
  wf := dot_S2048x2048_S256x2048_S2048x256_1_1_0_0_n_n_wf

abbrev win0_0 : Pipeline.Window sig grid0 :=
  Pipeline.Window.ofSpec (Memref.whole main_v0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S2048x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x2048 : Shape := ⟨2, ![8192, 2048]⟩
abbrev S32000x2048 : Shape := ⟨2, ![32000, 2048]⟩
abbrev S8192 : Shape := ⟨1, ![8192]⟩
abbrev S8192x32000 : Shape := ⟨2, ![8192, 32000]⟩
abbrev S_ : Shape := ⟨0, ![]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S32000x2048, .f32⟩
  | .hbm, ⟨2, _⟩ => ⟨S8192, .i32⟩
  | .hbm, ⟨3, _⟩ => ⟨S8192x32000, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192x1, .f32⟩
  | .hbm, ⟨10, _⟩ => ⟨S8192x32000, .f32⟩
  | .hbm, ⟨11, _⟩ => ⟨S8192x32000, .f32⟩
  | .hbm, ⟨12, _⟩ => ⟨S8192x32000, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S8192x32000, .f32⟩
  | .hbm, ⟨18, _⟩ => ⟨S8192x32000, .f32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S_, .i32⟩
  | .hbm, ⟨28, _⟩ => ⟨S8192x1, .i32⟩
  | .hbm, ⟨29, _⟩ => ⟨S8192x1, .i1⟩
  | .hbm, ⟨30, _⟩ => ⟨S_, .i32⟩
  | .hbm, ⟨31, _⟩ => ⟨S8192x1, .i32⟩
  | .hbm, ⟨32, _⟩ => ⟨S8192x1, .i32⟩
  | .hbm, ⟨33, _⟩ => ⟨S8192x1, .i32⟩
  | .hbm, ⟨34, _⟩ => ⟨S8192x1x1, .i32⟩
  | .hbm, ⟨35, _⟩ => ⟨S1, .i32⟩
  | .hbm, ⟨36, _⟩ => ⟨S_, .i32⟩
  | .hbm, ⟨37, _⟩ => ⟨S8192x1x1, .i32⟩
  | .hbm, ⟨38, _⟩ => ⟨S8192x1x1, .i1⟩
  | .hbm, ⟨39, _⟩ => ⟨S1x1x1, .i32⟩
  | .hbm, ⟨40, _⟩ => ⟨S8192x1x1, .i32⟩
  | .hbm, ⟨41, _⟩ => ⟨S8192x1x1, .i1⟩
  | .hbm, ⟨42, _⟩ => ⟨S8192x1x1, .i1⟩
  | .hbm, ⟨43, _⟩ => ⟨S_, .i1⟩
  | .hbm, ⟨44, _⟩ => ⟨S8192x1, .i1⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192, .f32⟩
  | .hbm, ⟨50, _⟩ => ⟨S8192, .f32⟩
  | .hbm, ⟨51, _⟩ => ⟨S8192, .i32⟩
  | .hbm, ⟨52, _⟩ => ⟨S_, .i32⟩
  | .hbm, ⟨53, _⟩ => ⟨S_, .i32⟩
  | .hbm, ⟨54, _⟩ => ⟨S_, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S_, .f32⟩
  | .hbm, ⟨59, _⟩ => ⟨S_, .f32⟩
  | .hbm, ⟨60, _⟩ => ⟨S_, .i32⟩
  | .hbm, ⟨61, _⟩ => ⟨S_, .i32⟩
  | .hbm, ⟨62, _⟩ => ⟨S_, .f32⟩
  | .hbm, ⟨63, _⟩ => ⟨S_, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_call1_v0 : Ref sig .tc := ⟨.hbm, 23, rfl⟩
abbrev main_call1_v1 : Ref sig .tc := ⟨.hbm, 24, rfl⟩
abbrev main_v4 : Ref sig .tc := ⟨.hbm, 25, rfl⟩
abbrev main_v5 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_c_2 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_3 : Ref sig .tc := ⟨.hbm, 43, rfl⟩
abbrev main_call2_v12 : Ref sig .tc := ⟨.hbm, 44, rfl⟩
abbrev main_call2_v13 : Ref sig .tc := ⟨.hbm, 45, rfl⟩
abbrev main_call2_cst : Ref sig .tc := ⟨.hbm, 46, rfl⟩
abbrev main_call2_v14 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_c_1 : Ref sig .tc := ⟨.hbm, 52, rfl⟩
abbrev main_v10 : Ref sig .tc := ⟨.hbm, 53, rfl⟩
abbrev main_cst : Ref sig .tc := ⟨.hbm, 54, rfl⟩
abbrev main_call3_v0 : Ref sig .tc := ⟨.hbm, 55, rfl⟩
abbrev main_call3_v1 : Ref sig .tc := ⟨.hbm, 56, rfl⟩
abbrev main_v11 : Ref sig .tc := ⟨.hbm, 57, rfl⟩
abbrev main_cst_2 : Ref sig .tc := ⟨.hbm, 58, rfl⟩
abbrev main_v12 : Ref sig .tc := ⟨.hbm, 59, rfl⟩
abbrev main_c_3 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩

abbrev nD : Nat := 1
abbrev τ : Topo := Topo.v7x

variable {F : FTy → Type} [FloatOps F]

class Facts₀ : Prop where
  reducesTo_S8192x32000_S8192_d1 : S8192x32000.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32000_0_1 : S8192x1.BroadcastsInDim S8192x32000 (![0, 1] : Fin 2 → Fin S8192x32000.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  natLt_1_32 : 1 < 32
  reducesTo_S8192_S_d0 : S8192.ReducesTo [0] S_
  dot_S8192x2048_S32000x2048_S8192x32000_1_1_0_0_n_n_wf : DotDims.WF S8192x2048 S32000x2048 S8192x32000 [1] [1] [0] [0] [] []
  gather_S8192x32000_S8192x1x1_S8192x1_n_1_0_0_1_2_11_wf : GatherDims.WF S8192x32000 S8192x1x1 S8192x1 [] [1] [0] [1] [0] 2 ![1, 1]

variable [Facts₀]

def dot_S8192x2048_S32000x2048_S8192x32000_1_1_0_0_n_n : DotDims S8192x2048 S32000x2048 S8192x32000 where
  lhsContracting := [1]
  rhsContracting := [1]
  lhsNonContracting := [0]
  rhsNonContracting := [0]
  lhsBatch := []
  rhsBatch := []
  wf := dot_S8192x2048_S32000x2048_S8192x32000_1_1_0_0_n_n_wf
def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf

class Facts : Prop extends Facts₀ where

variable [Facts]
-- ==== Proof.PreFacts.lean ====
/-
  What the precondition says, element by element: every entry of the two float inputs is a real number (neither
  infinity), and every label is either the ignore index −100 (the word 4294967196) or a class index below 32000.
  The printed predicate is a conjunction of three all-reductions; each conjunct is read off at an index.
-/
import proofs.«430946_j34849364640323_2_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreFacts

open Idealize.ShloMosaic Cert.Pre_finite_inputs

variable [Cert.Pre_finite_inputs.Facts]

/-- The rank-0 shape has exactly one index: an all-reduction into it sees every operand element. -/
private instance subsingleton_scalar_idx : Subsingleton S_.Idx := ⟨fun _ _ => funext fun d => d.elim0⟩

/-- The f32 word 0x7F800000 (sign 0, exponent all ones, fraction 0) denotes +∞. -/
private theorem inf_word : Ideal.ofBits .f32 0x7F800000#32 = (⊤ : EReal) := by
  simp [Ideal.ofBits, Ideal.ieee]

/-- On the extended reals, |a| = max a (−a) lies strictly below +∞ only when a is a real number: at a = −∞ and at
    a = +∞ the maximum is +∞ itself. -/
private theorem real_of_abs_lt_inf (a : EReal)
    (h : Ideal.cmp .olt (max a (-a)) (Ideal.ofBits .f32 0x7F800000#32) = 1#1) : ∃ r : ℝ, a = (r : EReal) := by
  rw [inf_word] at h
  induction a using EReal.rec with
  | bot => simp [Ideal.cmp] at h
  | coe r => exact ⟨r, rfl⟩
  | top => simp [Ideal.cmp] at h

/-- A 32-bit word that is −100, or is signed-nonnegative and signed-below 32000, is −100 or reads, unsigned, below
    32000: signed-nonnegative means the top bit is clear, so the signed and unsigned readings agree. -/
private theorem label_of_word (v : BitVec 32)
    (h : IntOp.ori (IntOp.cmpi .eq v 4294967196#32)
          (IntOp.andi (IntOp.cmpi .sge v 0#32) (IntOp.cmpi .slt v 32000#32)) = 1#1) :
    v = 4294967196#32 ∨ v.toNat < 32000 := by
  rcases IntOp.ori_eq_one.1 h with h | h
  · exact Or.inl (IntOp.cmpi_eq.1 h)
  · obtain ⟨h1, h2⟩ := IntOp.andi_eq_one.1 h
    have h1' := IntOp.cmpi_sge.1 h1
    have h2' := IntOp.cmpi_slt.1 h2
    have e0 : (0#32 : BitVec 32).toInt = 0 := by decide
    have e1 : (32000#32 : BitVec 32).toInt = 32000 := by decide
    rw [e0] at h1'
    rw [e1] at h2'
    have hv := v.isLt
    rw [BitVec.toInt_eq_toNat_cond] at h1' h2'
    right
    split at h1' <;> omega

/-- The precondition, decoded. -/
theorem decode (x : FVec Ideal S8192x2048 .f32) (W : FVec Ideal S32000x2048 .f32) (y : IVec S8192 32)
    (h : Cert.Pre_finite_inputs.fn (F := Ideal) x W y = fun _ => 1#1) :
    (∀ i, ∃ r : ℝ, x i = (r : EReal)) ∧ (∀ i, ∃ r : ℝ, W i = (r : EReal))
      ∧ (∀ n, y n = 4294967196#32 ∨ (y n).toNat < 32000) := by
  have h0 := congrFun h ValueIdx.ix0
  dsimp only [Cert.Pre_finite_inputs.fn, Cert.Pre_finite_inputs.fn_part1] at h0
  obtain ⟨h12, h3⟩ := IntOp.andi_eq_one.1 h0
  obtain ⟨h1, h2⟩ := IntOp.andi_eq_one.1 h12
  refine ⟨fun i => ?_, fun i => ?_, fun n => ?_⟩
  · exact real_of_abs_lt_inf _ (Host.reduce_andi_all _ _ _ _ _ h1 i)
  · exact real_of_abs_lt_inf _ (Host.reduce_andi_all _ _ _ _ _ h2 i)
  · exact label_of_word _ (Host.reduce_andi_all _ _ _ _ _ h3 n)

end Cert.PreFacts

end
-- ==== Proof.Blocks.lean ====
/-
  What the kernel's input blocks are, in terms of the argument arrays.

  Grid point `t` of the 4 × 125 grid is row tile `t / 125` and class tile `t % 125`. Its first block is rows
  `2048 · (t / 125) + r` of `x` (converted to the narrower float format on the host, which changes no value), its
  second rows `256 · (t % 125) + b` of `W`, its third the labels of the same 2048 rows (the label vector reshaped
  into a column).
-/
import proofs.«430946_j34849364640323_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The three input blocks of a grid point, at their literal types. -/
abbrev xblk (c : Dev nD) (t : Fin cfg0.N) : Vec Ideal S2048x2048 .bf16 := iblk m c 0 t
abbrev wblk (c : Dev nD) (t : Fin cfg0.N) : Vec Ideal S256x2048 .f32 := iblk m c 1 t
abbrev yblk (c : Dev nD) (t : Fin cfg0.N) : Vec Ideal S2048x1 .i32 := iblk m c 2 t

/-- The block index maps, decided once over the grid. -/
theorem index0 : ∀ t : Fin cfg0.N, win0_0.index t (0 : Fin 2) = t.val / 125 ∧ win0_0.index t (1 : Fin 2) = 0 :=
  (by decide +kernel : ∀ t : Fin grid0.N, _)
theorem index1 : ∀ t : Fin cfg0.N, win0_1.index t (0 : Fin 2) = t.val % 125 ∧ win0_1.index t (1 : Fin 2) = 0 :=
  (by decide +kernel : ∀ t : Fin grid0.N, _)
theorem index2 : ∀ t : Fin cfg0.N, win0_2.index t (0 : Fin 2) = t.val / 125 ∧ win0_2.index t (1 : Fin 2) = 0 :=
  (by decide +kernel : ∀ t : Fin grid0.N, _)

/-- The converted copy of `x` the region finds is `x` itself: a change of float format is the identity. -/
theorem V_x (c : Dev nD) : (V m c main_v0 : S8192x2048.Idx → EReal) = m ((c : Thread nD τ).loc main_arg0) := by
  show StableHlo.after hostOps0 (fun b => m (c, b)) (Proc.devRef .tc main_v0) = _
  after_results
  rfl

theorem xblk_at (c : Dev nD) (t : Fin cfg0.N) (r : Fin 2048) (h : Fin 2048) (hn : 2048 * (t.val / 125) + r.val < 8192) :
    xblk m c t (ix2 r h) = m ((c : Thread nD τ).loc main_arg0) (ix2 (⟨2048 * (t.val / 125) + r.val, hn⟩ : Fin 8192) h) := by
  unfold xblk iblk
  rw [View.read_apply]
  show V m c main_v0 (((cfg0.win 0).blk t).view.emb (ix2 r h)) = _
  rw [V_x]
  congr 1
  funext a
  apply Fin.ext
  match a with
  | ⟨0, _⟩ => show win0_0.index t 0 * 2048 + 1 * r.val = 2048 * (t.val / 125) + r.val; rw [(index0 t).1]; omega
  | ⟨1, _⟩ => show win0_0.index t 1 * 2048 + 1 * h.val = h.val; rw [(index0 t).2]; omega

/-- Rows of `W`: class tile `t % 125`. -/
theorem V_w (c : Dev nD) : (V m c main_arg1 : S32000x2048.Idx → EReal) = m ((c : Thread nD τ).loc main_arg1) := V_main_arg1 m c

theorem wblk_at (c : Dev nD) (t : Fin cfg0.N) (b : Fin 256) (h : Fin 2048) (hv : 256 * (t.val % 125) + b.val < 32000) :
    wblk m c t (ix2 b h) = m ((c : Thread nD τ).loc main_arg1) (ix2 (⟨256 * (t.val % 125) + b.val, hv⟩ : Fin 32000) h) := by
  unfold wblk iblk
  rw [View.read_apply]
  show V m c main_arg1 (((cfg0.win 1).blk t).view.emb (ix2 b h)) = _
  rw [V_w]
  congr 1
  funext a
  apply Fin.ext
  match a with
  | ⟨0, _⟩ => show win0_1.index t 0 * 256 + 1 * b.val = 256 * (t.val % 125) + b.val; rw [(index1 t).1]; omega
  | ⟨1, _⟩ => show win0_1.index t 1 * 2048 + 1 * h.val = h.val; rw [(index1 t).2]; omega

/-- The label column the region finds is the label vector reshaped. -/
theorem V_y (c : Dev nD) : (V m c main_v1 : S8192x1.Idx → BitVec 32)
    = shapeCast S8192x1 (m ((c : Thread nD τ).loc main_arg2)) shapeCasts_S8192_S8192x1 := by
  show StableHlo.after hostOps0 (fun b => m (c, b)) (Proc.devRef .tc main_v1) = _
  after_results
  rfl

theorem yblk_at (c : Dev nD) (t : Fin cfg0.N) (r : Fin 2048) (hn : 2048 * (t.val / 125) + r.val < 8192) :
    yblk m c t (ix2 r (0 : Fin 1)) = m ((c : Thread nD τ).loc main_arg2) (ix1 (⟨2048 * (t.val / 125) + r.val, hn⟩ : Fin 8192)) := by
  unfold yblk iblk
  rw [View.read_apply]
  show V m c main_v1 (((cfg0.win 2).blk t).view.emb (ix2 r (0 : Fin 1))) = _
  rw [V_y]
  refine shapeCast_apply _ _ _ (ix1 (⟨2048 * (t.val / 125) + r.val, hn⟩ : Fin 8192)) ?_
  rw [Shape.rowMajor_val_one, Shape.rowMajor_val_two]
  show 2048 * (t.val / 125) + r.val = (win0_2.index t 0 * 2048 + 1 * r.val) * 1 + (win0_2.index t 1 * 1 + 1 * 0)
  rw [(index2 t).1, (index2 t).2]; omega

end Cert.KernelIdeal.Blocks

end
-- ==== Proof.Pieces.lean ====
/-
  What each control case of the kernel body leaves in the three carried scratch buffers and in the two outputs, as the
  body's pure payload terms. One grid point handles one tile of the vocabulary axis for a block of rows and carries,
  per row, the online-softmax state (m, l, t):
      m ← max(m, tile max),   l ← exp(m − m')·l + Σ exp(s − m'),   t ← t + (picked logit in this tile),
  where m' is the updated maximum and s the tile's logits. Case A (first tile) starts from the reset values −∞, 0, 0, which
  it stores before the update (so each scratch gets two stores, the later covering the earlier); case B (a middle tile)
  starts from the contents the point before left; case C (last tile) does the same and then also writes the two outputs
  from the updated state. Every store is of the whole buffer at offset (0, 0), so what a buffer holds at the end is the
  payload of its last store, and a load after a store reads that store's payload.
-/
import proofs.«430946_j34849364640323_2_alg».proof.Proof.Gen.KernelIdeal.Frame
import Idealize.ShloMosaic.Lib.Pipeline.Value
import Idealize.ShloMosaic.Lib.Tactic

set_option maxRecDepth 16384

noncomputable section
open Idealize.ShloMosaic Idealize.ShloMosaic.TcCoe Idealize.SL.Sem
namespace Cert.KernelIdeal.Pieces
open Cert.KernelIdeal Cert.KernelIdeal.Gen
variable {F : FTy → Type} [FloatOps F]

/-- The offset (0, 0), as the constant-zero offset. -/
theorem hz : (![0, 0] : Fin 2 → Nat) = fun _ => 0 := funext fun a => by fin_cases a <;> rfl

/-- Case A, the running maximum m: the reset value −∞ (`k0_pay5`) is stored first, then the update max(m, tile max) computed from that reset value; the later store covers the buffer. -/
theorem sout_A_0 (c : Dev nD) (i : grid0.Coords) (arg2 : Memref sig .tc .vmem S2048x2048 .bf16) (harg2 : arg2.IsWhole) (arg3 : Memref sig .tc .vmem S256x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : cond0_0 i) (hc1 : ¬cond0_1 i)
    (x0 : Vec F S2048x2048 .bf16) (x1 : Vec F S256x2048 .f32) (x2 : Vec F S2048x1 .i32) :
    sout0_A_0 c i arg2 harg2 arg3 harg3 arg4 harg4 arg5 harg5 arg6 harg6 arg7 harg7 arg8 harg8 arg9 harg9 hc0 hc1 x0 x1 x2 = k0_pay2 (k0_pay11 x0 x1 k0_pay5) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S2048x1) hz]
  simp only [View.readAt_eq_ld, harg2.read_unread, harg3.read_unread, View.ld_unit_zero (S := S2048x2048) hz, View.ld_unit_zero (S := S256x2048) hz, View.readCov_unit_zero (S := S2048x1) _ hz]

/-- Case A, the running sum l: the reset value 0 (`k0_pay6`) is stored first, then exp(m − m')·l + Σ exp(s − m'), with m the reset maximum and l the reset sum. -/
theorem sout_A_1 (c : Dev nD) (i : grid0.Coords) (arg2 : Memref sig .tc .vmem S2048x2048 .bf16) (harg2 : arg2.IsWhole) (arg3 : Memref sig .tc .vmem S256x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : cond0_0 i) (hc1 : ¬cond0_1 i)
    (x0 : Vec F S2048x2048 .bf16) (x1 : Vec F S256x2048 .f32) (x2 : Vec F S2048x1 .i32) :
    sout0_A_1 c i arg2 harg2 arg3 harg3 arg4 harg4 arg5 harg5 arg6 harg6 arg7 harg7 arg8 harg8 arg9 harg9 hc0 hc1 x0 x1 x2 = k0_pay1 (k0_pay12 x0 x1 k0_pay5 k0_pay5) (k0_pay13 x0 x1 k0_pay5) k0_pay6 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S2048x1) hz]
  simp only [View.readAt_eq_ld, harg2.read_unread, harg3.read_unread, View.ld_unit_zero (S := S2048x2048) hz, View.ld_unit_zero (S := S256x2048) hz, View.readCov_unit_zero (S := S2048x1) _ hz]

/-- Case A, the picked logit t: the reset value 0 (`k0_pay7`) is stored first, then t + (the logit at the label, where the label falls in this tile). -/
theorem sout_A_2 (c : Dev nD) (i : grid0.Coords) (arg2 : Memref sig .tc .vmem S2048x2048 .bf16) (harg2 : arg2.IsWhole) (arg3 : Memref sig .tc .vmem S256x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : cond0_0 i) (hc1 : ¬cond0_1 i)
    (x0 : Vec F S2048x2048 .bf16) (x1 : Vec F S256x2048 .f32) (x2 : Vec F S2048x1 .i32) :
    sout0_A_2 c i arg2 harg2 arg3 harg3 arg4 harg4 arg5 harg5 arg6 harg6 arg7 harg7 arg8 harg8 arg9 harg9 hc0 hc1 x0 x1 x2 = k0_pay10 i x0 x1 x2 k0_pay7 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S2048x1) hz]
  simp only [View.readAt_eq_ld, harg2.read_unread, harg3.read_unread, harg4.read_unread, View.ld_unit_zero (S := S2048x2048) hz, View.ld_unit_zero (S := S256x2048) hz, View.ld_unit_zero (S := S2048x1) hz, View.readCov_unit_zero (S := S2048x1) _ hz]

/-- Case B, the running maximum: max(m, tile max) from the carried m = `xs0`. -/
theorem sout_B_0 (c : Dev nD) (i : grid0.Coords) (arg2 : Memref sig .tc .vmem S2048x2048 .bf16) (harg2 : arg2.IsWhole) (arg3 : Memref sig .tc .vmem S256x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : ¬cond0_1 i)
    (x0 : Vec F S2048x2048 .bf16) (x1 : Vec F S256x2048 .f32) (x2 : Vec F S2048x1 .i32) (xs0 xs1 xs2 : Vec F S2048x1 .f32) :
    sout0_B_0 c i arg2 harg2 arg3 harg3 arg4 harg4 arg5 harg5 arg6 harg6 arg7 harg7 arg8 harg8 arg9 harg9 hc0 hc1 x0 x1 x2 xs0 xs1 xs2 = k0_pay2 (k0_pay11 x0 x1 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero hz]
  simp only [View.readAt_eq_ld, harg2.read_unread, harg3.read_unread, harg7.read_unread, View.ld_unit_zero (S := S2048x2048) hz, View.ld_unit_zero (S := S256x2048) hz, View.ld_unit_zero (S := S2048x1) hz]

/-- Case B, the running sum: exp(m − m')·l + Σ exp(s − m') from the carried m = `xs0`, l = `xs1`. -/
theorem sout_B_1 (c : Dev nD) (i : grid0.Coords) (arg2 : Memref sig .tc .vmem S2048x2048 .bf16) (harg2 : arg2.IsWhole) (arg3 : Memref sig .tc .vmem S256x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : ¬cond0_1 i)
    (x0 : Vec F S2048x2048 .bf16) (x1 : Vec F S256x2048 .f32) (x2 : Vec F S2048x1 .i32) (xs0 xs1 xs2 : Vec F S2048x1 .f32) :
    sout0_B_1 c i arg2 harg2 arg3 harg3 arg4 harg4 arg5 harg5 arg6 harg6 arg7 harg7 arg8 harg8 arg9 harg9 hc0 hc1 x0 x1 x2 xs0 xs1 xs2 = k0_pay1 (k0_pay12 x0 x1 xs0 xs0) (k0_pay13 x0 x1 xs0) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero hz]
  simp only [View.readAt_eq_ld, harg2.read_unread, harg3.read_unread, harg7.read_unread, harg8.read_unread, View.ld_unit_zero (S := S2048x2048) hz, View.ld_unit_zero (S := S256x2048) hz, View.ld_unit_zero (S := S2048x1) hz]

/-- Case B, the picked logit: t + (the logit at the label in this tile) from the carried t = `xs2`. -/
theorem sout_B_2 (c : Dev nD) (i : grid0.Coords) (arg2 : Memref sig .tc .vmem S2048x2048 .bf16) (harg2 : arg2.IsWhole) (arg3 : Memref sig .tc .vmem S256x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : ¬cond0_1 i)
    (x0 : Vec F S2048x2048 .bf16) (x1 : Vec F S256x2048 .f32) (x2 : Vec F S2048x1 .i32) (xs0 xs1 xs2 : Vec F S2048x1 .f32) :
    sout0_B_2 c i arg2 harg2 arg3 harg3 arg4 harg4 arg5 harg5 arg6 harg6 arg7 harg7 arg8 harg8 arg9 harg9 hc0 hc1 x0 x1 x2 xs0 xs1 xs2 = k0_pay10 i x0 x1 x2 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg9.read_unread, View.ld_unit_zero (S := S2048x2048) hz, View.ld_unit_zero (S := S256x2048) hz, View.ld_unit_zero (S := S2048x1) hz]

/-- Case C, the running maximum: as in case B. -/
theorem sout_C_0 (c : Dev nD) (i : grid0.Coords) (arg2 : Memref sig .tc .vmem S2048x2048 .bf16) (harg2 : arg2.IsWhole) (arg3 : Memref sig .tc .vmem S256x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : cond0_1 i)
    (x0 : Vec F S2048x2048 .bf16) (x1 : Vec F S256x2048 .f32) (x2 : Vec F S2048x1 .i32) (xs0 xs1 xs2 : Vec F S2048x1 .f32) :
    sout0_C_0 c i arg2 harg2 arg3 harg3 arg4 harg4 arg5 harg5 arg6 harg6 arg7 harg7 arg8 harg8 arg9 harg9 hc0 hc1 x0 x1 x2 xs0 xs1 xs2 = k0_pay2 (k0_pay11 x0 x1 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz]
  simp only [View.readAt_eq_ld, harg2.read_unread, harg3.read_unread, harg7.read_unread, View.ld_unit_zero (S := S2048x2048) hz, View.ld_unit_zero (S := S256x2048) hz, View.ld_unit_zero (S := S2048x1) hz]

/-- Case C, the running sum: as in case B. -/
theorem sout_C_1 (c : Dev nD) (i : grid0.Coords) (arg2 : Memref sig .tc .vmem S2048x2048 .bf16) (harg2 : arg2.IsWhole) (arg3 : Memref sig .tc .vmem S256x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : cond0_1 i)
    (x0 : Vec F S2048x2048 .bf16) (x1 : Vec F S256x2048 .f32) (x2 : Vec F S2048x1 .i32) (xs0 xs1 xs2 : Vec F S2048x1 .f32) :
    sout0_C_1 c i arg2 harg2 arg3 harg3 arg4 harg4 arg5 harg5 arg6 harg6 arg7 harg7 arg8 harg8 arg9 harg9 hc0 hc1 x0 x1 x2 xs0 xs1 xs2 = k0_pay1 (k0_pay12 x0 x1 xs0 xs0) (k0_pay13 x0 x1 xs0) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz]
  simp only [View.readAt_eq_ld, harg2.read_unread, harg3.read_unread, harg7.read_unread, harg8.read_unread, View.ld_unit_zero (S := S2048x2048) hz, View.ld_unit_zero (S := S256x2048) hz, View.ld_unit_zero (S := S2048x1) hz]

/-- Case C, the picked logit: as in case B. -/
theorem sout_C_2 (c : Dev nD) (i : grid0.Coords) (arg2 : Memref sig .tc .vmem S2048x2048 .bf16) (harg2 : arg2.IsWhole) (arg3 : Memref sig .tc .vmem S256x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : cond0_1 i)
    (x0 : Vec F S2048x2048 .bf16) (x1 : Vec F S256x2048 .f32) (x2 : Vec F S2048x1 .i32) (xs0 xs1 xs2 : Vec F S2048x1 .f32) :
    sout0_C_2 c i arg2 harg2 arg3 harg3 arg4 harg4 arg5 harg5 arg6 harg6 arg7 harg7 arg8 harg8 arg9 harg9 hc0 hc1 x0 x1 x2 xs0 xs1 xs2 = k0_pay10 i x0 x1 x2 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg9.read_unread, View.ld_unit_zero (S := S2048x2048) hz, View.ld_unit_zero (S := S256x2048) hz, View.ld_unit_zero (S := S2048x1) hz]

/-- Case C, the first output: the per-row loss m' + log l' − t' of the three updated carries (m', l', t'), each read back after its store. -/
theorem out_C_3 (c : Dev nD) (i : grid0.Coords) (arg2 : Memref sig .tc .vmem S2048x2048 .bf16) (harg2 : arg2.IsWhole) (arg3 : Memref sig .tc .vmem S256x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : cond0_1 i)
    (x0 : Vec F S2048x2048 .bf16) (x1 : Vec F S256x2048 .f32) (x2 : Vec F S2048x1 .i32) (xs0 xs1 xs2 : Vec F S2048x1 .f32) :
    out0_C_3 c i arg2 harg2 arg3 harg3 arg4 harg4 arg5 harg5 arg6 harg6 arg7 harg7 arg8 harg8 arg9 harg9 hc0 hc1 x0 x1 x2 xs0 xs1 xs2 = k0_pay3 (k0_pay2 (k0_pay11 x0 x1 xs0)) (k0_pay1 (k0_pay12 x0 x1 xs0 xs0) (k0_pay13 x0 x1 xs0) xs1) (k0_pay10 i x0 x1 x2 xs2) := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg7.read_unread, harg8.read_unread, harg9.read_unread, View.ld_unit_zero (S := S2048x2048) hz, View.ld_unit_zero (S := S256x2048) hz, View.ld_unit_zero (S := S2048x1) hz, View.readCov_unit_zero (S := S2048x1) _ hz]

/-- Case C, the second output: a function of the labels alone, 1 where the label is not the ignore index −100 and 0 where it is. -/
theorem out_C_4 (c : Dev nD) (i : grid0.Coords) (arg2 : Memref sig .tc .vmem S2048x2048 .bf16) (harg2 : arg2.IsWhole) (arg3 : Memref sig .tc .vmem S256x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (hc0 : ¬cond0_0 i) (hc1 : cond0_1 i)
    (x0 : Vec F S2048x2048 .bf16) (x1 : Vec F S256x2048 .f32) (x2 : Vec F S2048x1 .i32) (xs0 xs1 xs2 : Vec F S2048x1 .f32) :
    out0_C_4 c i arg2 harg2 arg3 harg3 arg4 harg4 arg5 harg5 arg6 harg6 arg7 harg7 arg8 harg8 arg9 harg9 hc0 hc1 x0 x1 x2 xs0 xs1 xs2 = k0_pay4 (k0_pay9 x2) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz]
  simp only [View.readAt_eq_ld, harg4.read_unread, View.ld_unit_zero (S := S2048x1) hz]

end Cert.KernelIdeal.Pieces
end
-- ==== Proof.Cases.lean ====
/-
  What a grid point leaves, by its control case, as the body's payload terms of the point's input blocks.

  A point whose class tile is the first of its row tile resets the three scratches and then updates them; any
  other point updates what the point before left; the last class tile of a row tile moreover writes the two
  outputs from the updated scratches.
-/
import proofs.«430946_j34849364640323_2_alg».proof.Proof.Blocks
import proofs.«430946_j34849364640323_2_alg».proof.Proof.Pieces

set_option maxRecDepth 16384

noncomputable section

namespace Cert.KernelIdeal.Cases

open Idealize.ShloMosaic Idealize.ShloMosaic.TcCoe Idealize.SL.Sem
open Cert.KernelIdeal Cert.KernelIdeal.Gen Cert.KernelIdeal.Blocks

variable (m : (ℓ : Loc nD τ sig) → Buf (Elt Ideal) ℓ) (c : Dev nD)

/-- The scratches the point before left. -/
abbrev prevMax (t : Fin cfg0.N) : Vec Ideal S2048x1 .f32 := (outsAt0 m c (t.val - 1) (Nat.lt_of_le_of_lt (Nat.sub_le _ _) t.isLt)).2.2.1
abbrev prevSum (t : Fin cfg0.N) : Vec Ideal S2048x1 .f32 := (outsAt0 m c (t.val - 1) (Nat.lt_of_le_of_lt (Nat.sub_le _ _) t.isLt)).2.2.2.1
abbrev prevPick (t : Fin cfg0.N) : Vec Ideal S2048x1 .f32 := (outsAt0 m c (t.val - 1) (Nat.lt_of_le_of_lt (Nat.sub_le _ _) t.isLt)).2.2.2.2

/-- The three updated scratches from carried values `m0 l0 t0`. -/
abbrev newMax (t : Fin cfg0.N) (m0 : Vec Ideal S2048x1 .f32) : Vec Ideal S2048x1 .f32 :=
  k0_pay2 (F := Ideal) (k0_pay11 (F := Ideal) (xblk m c t) (wblk m c t) m0)
abbrev newSum (t : Fin cfg0.N) (m0 l0 : Vec Ideal S2048x1 .f32) : Vec Ideal S2048x1 .f32 :=
  k0_pay1 (F := Ideal) (k0_pay12 (F := Ideal) (xblk m c t) (wblk m c t) m0 m0) (k0_pay13 (F := Ideal) (xblk m c t) (wblk m c t) m0) l0
abbrev newPick (t : Fin cfg0.N) (t0 : Vec Ideal S2048x1 .f32) : Vec Ideal S2048x1 .f32 :=
  k0_pay10 (F := Ideal) (grid0.coords t) (xblk m c t) (wblk m c t) (yblk m c t) t0

/-- First class tile of a row tile: from the reset values. -/
theorem first_tile (t : Fin cfg0.N) (h0 : t.val % 125 = 0) (h1 : ¬t.val % 125 = 124) :
    (outsAt0 m c t.val t.isLt).2.2.1 = newMax m c t (k0_pay5 (F := Ideal))
    ∧ (outsAt0 m c t.val t.isLt).2.2.2.1 = newSum m c t (k0_pay5 (F := Ideal)) (k0_pay6 (F := Ideal))
    ∧ (outsAt0 m c t.val t.isLt).2.2.2.2 = newPick m c t (k0_pay7 (F := Ideal)) := by
  rw [outsAt0_A m c t h0 h1]
  dsimp only
  exact ⟨Pieces.sout_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
    Pieces.sout_A_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
    Pieces.sout_A_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)⟩

/-- A middle class tile: from what the point before left. -/
theorem middle_tile (t : Fin cfg0.N) (h0 : ¬t.val % 125 = 0) (h1 : ¬t.val % 125 = 124) :
    (outsAt0 m c t.val t.isLt).2.2.1 = newMax m c t (prevMax m c t)
    ∧ (outsAt0 m c t.val t.isLt).2.2.2.1 = newSum m c t (prevMax m c t) (prevSum m c t)
    ∧ (outsAt0 m c t.val t.isLt).2.2.2.2 = newPick m c t (prevPick m c t) := by
  rw [outsAt0_B m c t h0 h1]
  dsimp only
  exact ⟨Pieces.sout_B_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (prevMax m c t) (prevSum m c t) (prevPick m c t),
    Pieces.sout_B_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (prevMax m c t) (prevSum m c t) (prevPick m c t),
    Pieces.sout_B_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (prevMax m c t) (prevSum m c t) (prevPick m c t)⟩

/-- The last class tile of a row tile: the same update, and the two outputs written from the updated scratches. -/
theorem last_tile (t : Fin cfg0.N) (h0 : ¬t.val % 125 = 0) (h1 : t.val % 125 = 124) :
    (outsAt0 m c t.val t.isLt).2.2.1 = newMax m c t (prevMax m c t)
    ∧ (outsAt0 m c t.val t.isLt).2.2.2.1 = newSum m c t (prevMax m c t) (prevSum m c t)
    ∧ (outsAt0 m c t.val t.isLt).2.2.2.2 = newPick m c t (prevPick m c t)
    ∧ (outsAt0 m c t.val t.isLt).1 = k0_pay3 (F := Ideal) (newMax m c t (prevMax m c t)) (newSum m c t (prevMax m c t) (prevSum m c t)) (newPick m c t (prevPick m c t))
    ∧ (outsAt0 m c t.val t.isLt).2.1 = k0_pay4 (F := Ideal) (k0_pay9 (F := Ideal) (yblk m c t)) := by
  rw [outsAt0_C m c t h0 h1]
  dsimp only
  exact ⟨Pieces.sout_C_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prevMax m c t) (prevSum m c t) (prevPick m c t),
    Pieces.sout_C_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prevMax m c t) (prevSum m c t) (prevPick m c t),
    Pieces.sout_C_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prevMax m c t) (prevSum m c t) (prevPick m c t),
    Pieces.out_C_3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prevMax m c t) (prevSum m c t) (prevPick m c t),
    Pieces.out_C_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prevMax m c t) (prevSum m c t) (prevPick m c t)⟩

end Cert.KernelIdeal.Cases

end
-- ==== Proof.PayAt.lean ====
/-
  The kernel body's arithmetic, read at one row.

  The body works on a tile of 2048 rows and 256 classes. With `s r b = ∑_h x[r,h] · w[b,h]` the tile's logits
  (the matrix product into a zero accumulator, the change of float format being the identity), row `r` of each
  stored value is: the new maximum `max m (max_b s r b)`; the rescaling factor `exp (m − m')`; the shifted
  exponentials `exp (s r b − m')`; the new sum `factor · l + ∑_b exponentials`; the new picked logit
  `t + ∑_b [column b of this tile is the label] · s r b`; at the last tile the row's loss `(m + log l) − t` and
  the flag `1` or `0` for a label other than the ignore index; and the three reset values `−∞, 0, 0`.
-/
import proofs.«430946_j34849364640323_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayAt

open Idealize.ShloMosaic Idealize.ShloMosaic.ValueIdx Cert.KernelIdeal Cert.KernelIdeal.Gen

/-- A lane result made a column: row `r` of the column is entry `r` of the lane result. -/
private theorem col_at {α : Type} (v : S2048.Idx → α) (h : S2048.ShapeCasts S2048x1) (r : Fin 2048) :
    shapeCast S2048x1 v h (ix2 r (0 : Fin 1)) = v (ix1 r) := by
  refine shapeCast_apply v h (ix2 r (0 : Fin 1)) (ix1 r) ?_
  rw [Shape.rowMajor_val_one, Shape.rowMajor_val_two]
  show r.val = r.val * 1 + 0
  omega

/-- A column broadcast along the lanes: every lane of row `r` reads the column's row `r`. -/
private theorem bcast_at {α : Type} (x : S2048x1.Idx → α) (h : S2048x1.Broadcasts S2048x256) (r : Fin 2048) (b : Fin 256) :
    broadcastTo S2048x256 x h (ix2 r b) = x (ix2 r (0 : Fin 1)) := by
  refine broadcastTo_apply x h (ix2 r b) (ix2 r (0 : Fin 1)) (fun a => ?_)
  match a with
  | ⟨0, _⟩ => rfl
  | ⟨1, _⟩ => rfl

/-- The word `0xFF800000` denotes the bottom element. -/
private theorem ofBits_negInf : Ideal.ofBits .f32 0xFF800000#32 = ⊥ := by
  simp [Ideal.ofBits, Ideal.ieee]

/-- The lane sum of row `r`. -/
private theorem laneSum_at (src : FVec Ideal S2048x256 .f32) (h : S2048x256.Reduces [1] S2048) (hφ : FKind.Formats .f32)
    (hacc : (0x00000000#32 : BitVec 32) = FKind.add.neutral .f32 hφ) (r : Fin 2048) :
    multiReduction (F := Ideal) .add [1] S2048 src 0x00000000#32 h hφ hacc (ix1 r) = ∑ b : Fin 256, src (ix2 r b) := by
  refine (Ideal.multiReduction_add_single src _ h hφ hacc (ix1 r)).trans ?_
  refine Finset.sum_congr rfl (fun b _ => congrArg src ?_)
  funext a
  match a with
  | ⟨0, _⟩ => rfl
  | ⟨1, _⟩ => rfl

/-- The lane maximum of row `r`, folded from the bottom element. -/
private theorem laneMax_at (src : FVec Ideal S2048x256 .f32) (h : S2048x256.Reduces [1] S2048) (hφ : FKind.Formats .f32)
    (hacc : (0xFF800000#32 : BitVec 32) = FKind.maximumf.neutral .f32 hφ) (r : Fin 2048) :
    multiReduction (F := Ideal) .maximumf [1] S2048 src 0xFF800000#32 h hφ hacc (ix1 r)
      = (Finset.univ : Finset (Fin 256)).fold max ⊥ fun b => src (ix2 r b) := by
  refine (Ideal.multiReduction_maximumf_single src _ h hφ hacc (ix1 r)).trans ?_
  have e : (src ∘ h.lift (ix1 r)) = fun b : Fin 256 => src (ix2 r b) := by
    funext b
    refine congrArg src ?_
    funext a
    match a with
    | ⟨0, _⟩ => rfl
    | ⟨1, _⟩ => rfl
  rw [e]
  show (Finset.univ : Finset (Fin 256)).fold max (Ideal.ofBits .f32 0xFF800000#32) _ = _
  rw [ofBits_negInf]

/-- The left operand of the product is read at the output's row … -/
private theorem lhs_k_0 (i : S2048x256.Idx) (q : dot_S2048x2048_S256x2048_S2048x256_1_1_0_0_n_n.contr.Idx) :
    (dot_S2048x2048_S256x2048_S2048x256_1_1_0_0_n_n.lhsIdx i q 0).val = (i 0).val := by
  unfold DotDims.lhsIdx
  rw [dif_neg (show ¬(0 : Fin S2048x2048.rank) ∈ dot_S2048x2048_S256x2048_S2048x256_1_1_0_0_n_n.lhsBatch by decide), dif_pos (show (0 : Fin S2048x2048.rank) ∈ dot_S2048x2048_S256x2048_S2048x256_1_1_0_0_n_n.lhsNonContracting by decide)]
  rfl

/-- … and the contraction index; -/
private theorem lhs_k_1 (i : S2048x256.Idx) (q : dot_S2048x2048_S256x2048_S2048x256_1_1_0_0_n_n.contr.Idx) :
    (dot_S2048x2048_S256x2048_S2048x256_1_1_0_0_n_n.lhsIdx i q 1).val = (q ⟨0, by decide⟩).val :=
  dot_S2048x2048_S256x2048_S2048x256_1_1_0_0_n_n.lhsIdx_val_of_single rfl i q

/-- the right operand at the output's column … -/
private theorem rhs_k_0 (i : S2048x256.Idx) (q : dot_S2048x2048_S256x2048_S2048x256_1_1_0_0_n_n.contr.Idx) :
    (dot_S2048x2048_S256x2048_S2048x256_1_1_0_0_n_n.rhsIdx i q 0).val = (i 1).val := by
  unfold DotDims.rhsIdx
  rw [dif_neg (show ¬(0 : Fin S256x2048.rank) ∈ dot_S2048x2048_S256x2048_S2048x256_1_1_0_0_n_n.rhsBatch by decide), dif_pos (show (0 : Fin S256x2048.rank) ∈ dot_S2048x2048_S256x2048_S2048x256_1_1_0_0_n_n.rhsNonContracting by decide)]
  rfl

/-- … and the contraction index. -/
private theorem rhs_k_1 (i : S2048x256.Idx) (q : dot_S2048x2048_S256x2048_S2048x256_1_1_0_0_n_n.contr.Idx) :
    (dot_S2048x2048_S256x2048_S2048x256_1_1_0_0_n_n.rhsIdx i q 1).val = (q ⟨0, by decide⟩).val :=
  dot_S2048x2048_S256x2048_S2048x256_1_1_0_0_n_n.rhsIdx_val_of_single rfl i q

/-- The tile's logits: the product into the zero accumulator is the plain contraction over the hidden axis. -/
theorem logits_at (x0 : Vec Ideal S2048x2048 .bf16) (x1 : Vec Ideal S256x2048 .f32) (r : Fin 2048) (b : Fin 256) :
    k0_pay8 (F := Ideal) x0 x1 (ix2 r b) = ∑ h : Fin 2048, x0 (ix2 r h) * x1 (ix2 b h) := by
  unfold k0_pay8
  refine (Ideal.matmul_constant_zero_apply dot_S2048x2048_S256x2048_S2048x256_1_1_0_0_n_n none _ _ (ix2 r b)).trans ?_
  rw [← Equiv.sum_comp (ValueIdx.contrEquiv1 dot_S2048x2048_S256x2048_S2048x256_1_1_0_0_n_n 2048 rfl rfl).symm]
  refine Finset.sum_congr rfl fun k _ => ?_
  have hk := ValueIdx.contrEquiv1_symm_val dot_S2048x2048_S256x2048_S2048x256_1_1_0_0_n_n 2048 rfl rfl k
  have el : dot_S2048x2048_S256x2048_S2048x256_1_1_0_0_n_n.lhsIdx (ix2 r b) ((ValueIdx.contrEquiv1 dot_S2048x2048_S256x2048_S2048x256_1_1_0_0_n_n 2048 rfl rfl).symm k) = ix2 r k := funext fun a => Fin.ext (by
    match a with
    | ⟨0, _⟩ => exact lhs_k_0 _ _
    | ⟨1, _⟩ => exact (lhs_k_1 _ _).trans hk)
  have er : dot_S2048x2048_S256x2048_S2048x256_1_1_0_0_n_n.rhsIdx (ix2 r b) ((ValueIdx.contrEquiv1 dot_S2048x2048_S256x2048_S2048x256_1_1_0_0_n_n 2048 rfl rfl).symm k) = ix2 b k := funext fun a => Fin.ext (by
    match a with
    | ⟨0, _⟩ => exact rhs_k_0 _ _
    | ⟨1, _⟩ => exact (rhs_k_1 _ _).trans hk)
  rw [el, er]
  exact congrArg (· * x1 (ix2 b k)) (congrFun (shapeCast_self x0 _) (ix2 r k))

/-- The new running maximum of row `r`. -/
theorem newMax_at (x0 : Vec Ideal S2048x2048 .bf16) (x1 : Vec Ideal S256x2048 .f32) (m0 : Vec Ideal S2048x1 .f32) (r : Fin 2048) :
    k0_pay11 (F := Ideal) x0 x1 m0 (ix2 r (0 : Fin 1))
      = max (m0 (ix2 r (0 : Fin 1))) ((Finset.univ : Finset (Fin 256)).fold max ⊥ fun b => k0_pay8 (F := Ideal) x0 x1 (ix2 r b)) := by
  unfold k0_pay11
  refine (maximumf_apply _ _ _).trans ?_
  exact congrArg (max (m0 (ix2 r (0 : Fin 1)))) ((col_at _ _ r).trans (laneMax_at (k0_pay8 (F := Ideal) x0 x1) _ _ _ r))

/-- Storing the new maximum: the value unchanged. -/
theorem storedMax_at (v : FVec Ideal S2048x1 .f32) (r : Fin 2048) :
    k0_pay2 (F := Ideal) v (ix2 r (0 : Fin 1)) = v (ix2 r (0 : Fin 1)) := by
  unfold k0_pay2
  rw [shapeCast_self]

/-- The rescaling factor of row `r`. -/
theorem factor_at (x0 : Vec Ideal S2048x2048 .bf16) (x1 : Vec Ideal S256x2048 .f32) (m0 m1 : Vec Ideal S2048x1 .f32) (r : Fin 2048) :
    k0_pay12 (F := Ideal) x0 x1 m0 m1 (ix2 r (0 : Fin 1))
      = Ideal.exp (m1 (ix2 r (0 : Fin 1)) - k0_pay11 (F := Ideal) x0 x1 m0 (ix2 r (0 : Fin 1))) := by
  unfold k0_pay12
  rfl

/-- The shifted exponentials of row `r`. -/
theorem shifted_at (x0 : Vec Ideal S2048x2048 .bf16) (x1 : Vec Ideal S256x2048 .f32) (m0 : Vec Ideal S2048x1 .f32) (r : Fin 2048) (b : Fin 256) :
    k0_pay13 (F := Ideal) x0 x1 m0 (ix2 r b)
      = Ideal.exp (k0_pay8 (F := Ideal) x0 x1 (ix2 r b) - k0_pay11 (F := Ideal) x0 x1 m0 (ix2 r (0 : Fin 1))) := by
  unfold k0_pay13
  show Ideal.exp (k0_pay8 (F := Ideal) x0 x1 (ix2 r b) - broadcastTo S2048x256 (k0_pay11 (F := Ideal) x0 x1 m0) _ (ix2 r b)) = _
  rw [bcast_at]

/-- The new running sum of row `r`. -/
theorem newSum_at (fac : FVec Ideal S2048x1 .f32) (e : FVec Ideal S2048x256 .f32) (l0 : Vec Ideal S2048x1 .f32) (r : Fin 2048) :
    k0_pay1 (F := Ideal) fac e l0 (ix2 r (0 : Fin 1))
      = fac (ix2 r (0 : Fin 1)) * l0 (ix2 r (0 : Fin 1)) + ∑ b : Fin 256, e (ix2 r b) := by
  unfold k0_pay1
  rw [shapeCast_self]
  show fac (ix2 r (0 : Fin 1)) * l0 (ix2 r (0 : Fin 1)) + shapeCast S2048x1 _ _ (ix2 r (0 : Fin 1)) = _
  rw [col_at]
  exact congrArg (fac (ix2 r (0 : Fin 1)) * l0 (ix2 r (0 : Fin 1)) + ·) (laneSum_at e _ _ _ r)

/-- The new picked logit of row `r`: column `b` of tile `i 1` is class `256 · (i 1) + b`. -/
theorem newPick_at (i : grid0.Coords) (x0 : Vec Ideal S2048x2048 .bf16) (x1 : Vec Ideal S256x2048 .f32) (yb : Vec Ideal S2048x1 .i32)
    (t0 : Vec Ideal S2048x1 .f32) (r : Fin 2048) :
    k0_pay10 (F := Ideal) i x0 x1 yb t0 (ix2 r (0 : Fin 1))
      = t0 (ix2 r (0 : Fin 1)) + ∑ b : Fin 256,
          (if BitVec.ofNat 32 (256 * (i 1).val + b.val) = yb (ix2 r (0 : Fin 1)) then k0_pay8 (F := Ideal) x0 x1 (ix2 r b) else 0) := by
  unfold k0_pay10
  rw [shapeCast_self]
  show t0 (ix2 r (0 : Fin 1)) + shapeCast S2048x1 _ _ (ix2 r (0 : Fin 1)) = _
  rw [col_at]
  refine congrArg (t0 (ix2 r (0 : Fin 1)) + ·) ((laneSum_at _ _ _ _ r).trans ?_)
  refine Finset.sum_congr rfl fun b _ => ?_
  show Scalar.select (IntOp.cmpi .eq (IntOp.addi (iota .tc S2048x256 32 [1] _ (ix2 r b))
        (Scalar.muli (BitVec.ofNat 32 (i 1).val) 256#32)) (broadcastTo S2048x256 (k0_pay9 (F := Ideal) yb) _ (ix2 r b)))
      (k0_pay8 (F := Ideal) x0 x1 (ix2 r b)) (Ideal.ofBits .f32 0x00000000#32) = _
  rw [iota_single_apply, bcast_at, Ideal.ofBits_zero_f32]
  have hy : k0_pay9 (F := Ideal) yb (ix2 r (0 : Fin 1)) = yb (ix2 r (0 : Fin 1)) := by
    unfold k0_pay9
    rw [shapeCast_self]
  have hw : IntOp.addi (BitVec.ofNat 32 ((ix2 r b : S2048x256.Idx) 1).val) (Scalar.muli (BitVec.ofNat 32 (i 1).val) 256#32)
      = BitVec.ofNat 32 (256 * (i 1).val + b.val) := by
    show BitVec.ofNat 32 b.val + BitVec.ofNat 32 (i 1).val * 256#32 = _
    apply BitVec.eq_of_toNat_eq
    simp only [BitVec.toNat_add, BitVec.toNat_mul, BitVec.toNat_ofNat]
    omega
  rw [hy, hw]
  by_cases h : BitVec.ofNat 32 (256 * (i 1).val + b.val) = yb (ix2 r (0 : Fin 1))
  · rw [if_pos h, h]
    simp [IntOp.cmpi, Scalar.select]
  · rw [if_neg h]
    have hb : (BitVec.ofNat 32 (256 * (i 1).val + b.val) == yb (ix2 r (0 : Fin 1))) = false := beq_false_of_ne h
    simp only [IntOp.cmpi, hb]
    exact ValueIdx.select_zero _ _

/-- The row's loss at the last tile. -/
theorem rowLoss_at (mm ll tt : Vec Ideal S2048x1 .f32) (r : Fin 2048) :
    k0_pay3 (F := Ideal) mm ll tt (ix2 r (0 : Fin 1))
      = (mm (ix2 r (0 : Fin 1)) + Ideal.log (ll (ix2 r (0 : Fin 1)))) - tt (ix2 r (0 : Fin 1)) := by
  unfold k0_pay3
  rfl

/-- The row's flag: one unless its label is the ignore index −100. -/
theorem flag_at (yb : Vec Ideal S2048x1 .i32) (r : Fin 2048) :
    k0_pay4 (F := Ideal) (k0_pay9 (F := Ideal) yb) (ix2 r (0 : Fin 1))
      = if yb (ix2 r (0 : Fin 1)) = 4294967196#32 then (0 : EReal) else 1 := by
  unfold k0_pay4 k0_pay9
  rw [shapeCast_self]
  show ((((IntOp.cmpi .ne (yb (ix2 r (0 : Fin 1))) 4294967196#32).setWidth 32).toInt : ℝ) : EReal) = _
  by_cases h : yb (ix2 r (0 : Fin 1)) = 4294967196#32
  · rw [if_pos h, h]
    simp [IntOp.cmpi]
  · rw [if_neg h]
    have hb : (yb (ix2 r (0 : Fin 1)) != 4294967196#32) = true := bne_iff_ne.mpr h
    have hc : IntOp.cmpi .ne (yb (ix2 r (0 : Fin 1))) 4294967196#32 = 1#1 := by
      simp only [IntOp.cmpi, hb]
      rfl
    rw [hc]
    simp

/-- The reset values. -/
theorem resetMax_at (r : Fin 2048) : k0_pay5 (F := Ideal) (ix2 r (0 : Fin 1)) = (⊥ : EReal) := by
  unfold k0_pay5
  rw [shapeCast_self]
  exact ofBits_negInf

theorem resetSum_at (r : Fin 2048) : k0_pay6 (F := Ideal) (ix2 r (0 : Fin 1)) = (0 : EReal) := by
  unfold k0_pay6
  rw [shapeCast_self]
  exact Ideal.ofBits_zero_f32

theorem resetPick_at (r : Fin 2048) : k0_pay7 (F := Ideal) (ix2 r (0 : Fin 1)) = (0 : EReal) := by
  unfold k0_pay7
  rw [shapeCast_self]
  exact Ideal.ofBits_zero_f32

end Cert.KernelIdeal.PayAt

end
-- ==== Proof.Softmax.lean ====
/-
  The online log-sum-exp of one row of logits, as plain mathematics on the extended reals.

  A row of real logits `a 0, a 1, …` is consumed block by block. After the first `k` of them three numbers are
  known: the running maximum `runMax a k` (the lattice's bottom before any logit is seen), the running sum of
  exponentials shifted by that maximum, `runSum a k = ∑_{v<k} exp (a v − runMax a k)`, and the logit picked out
  by a label `y`, `runPick a y k = ∑_{v<k} [v = y] · a v`. A block of `B` further logits updates them by
      m' = max m (max of the block),   l' = exp (m − m') · l + ∑_b exp (block b − m'),   t' = t + ∑_b [k + b = y] · block b,
  and these ARE the three numbers after `k + B` logits: rescaling a sum of exponentials by `exp (m − m')` moves its
  shift from `m` to `m'` (`exp (m − m') · exp (a − m) = exp (a − m')`, distributed over a finite real sum), and before
  any logit is seen `exp (⊥ − m') · 0 = 0 · 0 = 0`. With every logit consumed, `m + log l` is the row's
  log-sum-exp, and `(m + log l) − a y = −((a y − m) − log l)`: the negative log-likelihood of label `y` either way
  it is spelt.
-/
import Idealize.ShloMosaic.PureOps.Ideal

noncomputable section

namespace Cert.OnlineSoftmax

open Idealize.ShloMosaic

/-- The maximum of the first `k` logits; the bottom element when `k = 0`. -/
def runMax (a : ℕ → ℝ) (k : ℕ) : EReal := (Finset.range k).sup fun v => (a v : EReal)

/-- The sum of the first `k` logits' exponentials, each shifted by the running maximum. -/
def runSum (a : ℕ → ℝ) (k : ℕ) : EReal := ∑ v ∈ Finset.range k, Ideal.exp ((a v : EReal) - runMax a k)

/-- The logit at position `y` if it is among the first `k`, else zero. -/
def runPick (a : ℕ → ℝ) (y k : ℕ) : EReal := ∑ v ∈ Finset.range k, if v = y then (a v : EReal) else 0

/-- The coercion of a finite real sum is the sum of the coercions. -/
private theorem coe_sum {ι : Type*} (s : Finset ι) (g : ι → ℝ) :
    ((∑ v ∈ s, g v : ℝ) : EReal) = ∑ v ∈ s, (g v : EReal) := by
  classical
  refine Finset.induction_on s (by simp) ?_
  intro x s hx ih
  rw [Finset.sum_insert hx, Finset.sum_insert hx, EReal.coe_add, ih]

/-- A fold of `max` from the bottom element is the finite supremum. -/
private theorem fold_max_eq_sup {ι : Type*} (s : Finset ι) (f : ι → EReal) : s.fold max ⊥ f = s.sup f := rfl

/-- A supremum indexed by `Fin B` is the supremum over the first `B` naturals. -/
private theorem sup_fin_eq (B : ℕ) (g : ℕ → EReal) :
    (Finset.univ : Finset (Fin B)).sup (fun b => g b.val) = (Finset.range B).sup g := by
  apply le_antisymm
  · exact Finset.sup_le (fun b _ => Finset.le_sup (f := g) (Finset.mem_range.mpr b.isLt))
  · exact Finset.sup_le (fun v hv =>
      Finset.le_sup (f := fun b : Fin B => g b.val) (Finset.mem_univ ⟨v, Finset.mem_range.mp hv⟩))

theorem runMax_zero (a : ℕ → ℝ) : runMax a 0 = ⊥ := by simp [runMax]

theorem runSum_zero (a : ℕ → ℝ) : runSum a 0 = 0 := by simp [runSum]

theorem runPick_zero (a : ℕ → ℝ) (y : ℕ) : runPick a y 0 = 0 := by simp [runPick]

/-- The maximum of the first `k + B` logits is the larger of the maximum of the first `k` and the maximum of the next `B`. -/
private theorem runMax_add (a : ℕ → ℝ) (k B : ℕ) :
    runMax a (k + B) = max (runMax a k) ((Finset.range B).sup fun b => (a (k + b) : EReal)) := by
  unfold runMax
  apply le_antisymm
  · refine Finset.sup_le (fun v hv => ?_)
    rcases lt_or_ge v k with h | h
    · exact le_max_of_le_left (Finset.le_sup (f := fun v => (a v : EReal)) (Finset.mem_range.mpr h))
    · have hv' : v - k < B := by have := Finset.mem_range.mp hv; omega
      have e : k + (v - k) = v := by omega
      have h2 : (a (k + (v - k)) : EReal) ≤ (Finset.range B).sup fun b => (a (k + b) : EReal) :=
        Finset.le_sup (f := fun b => (a (k + b) : EReal)) (Finset.mem_range.mpr hv')
      rw [e] at h2
      exact le_max_of_le_right h2
  · refine max_le (Finset.sup_le fun v hv => ?_) (Finset.sup_le fun b hb => ?_)
    · exact Finset.le_sup (f := fun v => (a v : EReal))
        (Finset.mem_range.mpr (by have := Finset.mem_range.mp hv; omega))
    · exact Finset.le_sup (f := fun v => (a v : EReal))
        (Finset.mem_range.mpr (by have := Finset.mem_range.mp hb; omega))

/-- After at least one logit the running maximum is a real number. -/
theorem runMax_real (a : ℕ → ℝ) {k : ℕ} (hk : 0 < k) : ∃ M : ℝ, runMax a k = (M : EReal) := by
  induction k with
  | zero => exact absurd hk (lt_irrefl _)
  | succ n ih =>
    have hs : runMax a (n + 1) = max (runMax a n) (a n : EReal) := by
      rw [runMax_add]; simp
    rw [hs]
    rcases Nat.eq_zero_or_pos n with rfl | hn
    · exact ⟨a 0, by rw [runMax_zero]; exact max_eq_right bot_le⟩
    · obtain ⟨M, hM⟩ := ih hn
      exact ⟨max M (a n), by rw [hM]; exact (EReal.coe_strictMono.monotone.map_max).symm⟩

/-- With a real running maximum the running sum is the coercion of a real sum of exponentials. -/
private theorem runSum_of_max (a : ℕ → ℝ) (k : ℕ) (M : ℝ) (hM : runMax a k = (M : EReal)) :
    runSum a k = ((∑ v ∈ Finset.range k, Real.exp (a v - M) : ℝ) : EReal) := by
  rw [runSum, hM, coe_sum]
  refine Finset.sum_congr rfl (fun v _ => ?_)
  rw [← EReal.coe_sub, Ideal.exp_coe]

/-- After at least one logit the running sum is a positive real number (the maximal logit contributes `exp 0 = 1`). -/
theorem runSum_real_pos (a : ℕ → ℝ) {k : ℕ} (hk : 0 < k) : ∃ S : ℝ, 0 < S ∧ runSum a k = (S : EReal) := by
  obtain ⟨M, hM⟩ := runMax_real a hk
  exact ⟨_, Finset.sum_pos (fun v _ => Real.exp_pos _) ⟨0, Finset.mem_range.mpr hk⟩, runSum_of_max a k M hM⟩

theorem runPick_of_lt (a : ℕ → ℝ) {y k : ℕ} (hy : y < k) : runPick a y k = (a y : EReal) := by
  simp [runPick, Finset.sum_ite_eq', hy]

theorem runPick_of_le (a : ℕ → ℝ) {y k : ℕ} (hy : k ≤ y) : runPick a y k = 0 := by
  simp [runPick, Finset.sum_ite_eq', not_lt.mpr hy]

/-- A block's maximum, folded from the bottom element, joins the running maximum. -/
theorem runMax_step (a : ℕ → ℝ) (k B : ℕ) (f : Fin B → EReal) (hf : ∀ b, f b = (a (k + b.val) : EReal)) :
    max (runMax a k) ((Finset.univ : Finset (Fin B)).fold max ⊥ f) = runMax a (k + B) := by
  have hf' : f = fun b : Fin B => (fun v => (a (k + v) : EReal)) b.val := funext hf
  rw [runMax_add, fold_max_eq_sup, hf', sup_fin_eq B (fun v => (a (k + v) : EReal))]

/-- The rescaled running sum plus a block's shifted exponentials is the running sum after the block. -/
theorem runSum_step (a : ℕ → ℝ) (k B : ℕ) (hB : 0 < B) (f : Fin B → EReal) (hf : ∀ b, f b = (a (k + b.val) : EReal)) :
    Ideal.exp (runMax a k - runMax a (k + B)) * runSum a k + ∑ b : Fin B, Ideal.exp (f b - runMax a (k + B))
      = runSum a (k + B) := by
  have hf' : f = fun b : Fin B => (a (k + b.val) : EReal) := funext hf
  subst hf'
  rcases Nat.eq_zero_or_pos k with rfl | hk
  · -- nothing seen yet: the rescaled part is `0 · 0`, and the block is the whole sum
    rw [runSum_zero, mul_zero, zero_add]
    simp only [Nat.zero_add]
    rw [runSum]
    exact Fin.sum_univ_eq_sum_range (fun v => Ideal.exp ((a v : EReal) - runMax a B)) B
  · -- every quantity is real: the identity is `exp (M − M') · exp (x − M) = exp (x − M')` summed
    obtain ⟨M, hM⟩ := runMax_real a hk
    obtain ⟨M', hM'⟩ := runMax_real a (show 0 < k + B by omega)
    rw [runSum_of_max a k M hM, runSum_of_max a (k + B) M' hM', hM, hM']
    have hblock : ∑ b : Fin B, Ideal.exp ((a (k + b.val) : EReal) - (M' : EReal))
        = ((∑ b : Fin B, Real.exp (a (k + b.val) - M') : ℝ) : EReal) := by
      rw [coe_sum]
      refine Finset.sum_congr rfl (fun b _ => ?_)
      rw [← EReal.coe_sub, Ideal.exp_coe]
    rw [hblock, ← EReal.coe_sub, Ideal.exp_coe, ← EReal.coe_mul, ← EReal.coe_add]
    congr 1
    rw [Finset.sum_range_add, Finset.mul_sum,
      Fin.sum_univ_eq_sum_range (fun v => Real.exp (a (k + v) - M')) B]
    congr 1
    refine Finset.sum_congr rfl (fun v _ => ?_)
    rw [← Real.exp_add]
    congr 1
    ring

/-- The picked-out logit accumulates block by block. -/
theorem runPick_step (a : ℕ → ℝ) (y k B : ℕ) (f : Fin B → EReal) (hf : ∀ b, f b = (a (k + b.val) : EReal))
    (p : Fin B → Prop) [DecidablePred p] (hp : ∀ b, p b ↔ k + b.val = y) :
    runPick a y k + ∑ b : Fin B, (if p b then f b else 0) = runPick a y (k + B) := by
  have hblock : ∑ b : Fin B, (if p b then f b else 0)
      = ∑ b : Fin B, (fun v => if k + v = y then (a (k + v) : EReal) else 0) b.val := by
    refine Finset.sum_congr rfl (fun b _ => ?_)
    rw [hf b]
    exact if_congr (hp b) rfl rfl
  rw [hblock, Fin.sum_univ_eq_sum_range (fun v => if k + v = y then (a (k + v) : EReal) else 0) B]
  unfold runPick
  rw [Finset.sum_range_add]

/-- A whole row's maximum folded from the bottom element is the running maximum after all of it. -/
theorem runMax_univ (a : ℕ → ℝ) (K : ℕ) (f : Fin K → EReal) (hf : ∀ v, f v = (a v.val : EReal)) :
    (Finset.univ : Finset (Fin K)).fold max ⊥ f = runMax a K := by
  have hf' : f = fun v : Fin K => (fun v => (a v : EReal)) v.val := funext hf
  rw [fold_max_eq_sup, hf', sup_fin_eq K (fun v => (a v : EReal))]
  rfl

/-- A whole row's shifted exponentials sum to the running sum after all of it. -/
theorem runSum_univ (a : ℕ → ℝ) (K : ℕ) (f : Fin K → EReal) (hf : ∀ v, f v = (a v.val : EReal)) :
    ∑ v : Fin K, Ideal.exp (f v - runMax a K) = runSum a K := by
  have hf' : f = fun v : Fin K => (a v.val : EReal) := funext hf
  subst hf'
  exact Fin.sum_univ_eq_sum_range (fun v => Ideal.exp ((a v : EReal) - runMax a K)) K

/-- The negative log-likelihood of label `y`, spelt as log-sum-exp minus the logit or as the negated
    log-softmax entry: the same real number. -/
theorem nll_eq (a : ℕ → ℝ) {y k : ℕ} (hy : y < k) :
    (runMax a k + Ideal.log (runSum a k)) - runPick a y k
      = -(((a y : EReal) - runMax a k) - Ideal.log (runSum a k)) := by
  have hk : 0 < k := by omega
  obtain ⟨M, hM⟩ := runMax_real a hk
  obtain ⟨S, hS, hSe⟩ := runSum_real_pos a hk
  rw [runPick_of_lt a hy, hM, hSe, Ideal.log_coe, if_neg (not_le.mpr hS),
    ← EReal.coe_add, ← EReal.coe_sub, ← EReal.coe_sub, ← EReal.coe_sub, ← EReal.coe_neg]
  congr 1
  ring

end Cert.OnlineSoftmax

end
-- ==== Proof.RowStep.lean ====
/-
  One row of the tile update, in the vocabulary of the online log-sum-exp.

  Fix a row `r` of a tile whose 256 logits are the real numbers `a (k), …, a (k + 255)` of a row of logits `a`.
  If the three carried numbers of the row are the running maximum, running sum and picked logit after `k`
  logits, then what the body stores for the row are those after `k + 256` logits: the maximum joins the tile's
  maximum, the sum is rescaled to the new maximum and joined by the tile's shifted exponentials, and the picked
  logit is joined by the tile's logit in the label's column (column `b` of tile `j` is class `256 · j + b`, equal as
  a 32-bit word to the label exactly when equal as a number, both being below `2 ^ 32`).
-/
import proofs.«430946_j34849364640323_2_alg».proof.Proof.PayAt
import proofs.«430946_j34849364640323_2_alg».proof.Proof.Softmax

noncomputable section

namespace Cert.KernelIdeal.RowStep

open Idealize.ShloMosaic Idealize.ShloMosaic.ValueIdx Cert.KernelIdeal Cert.KernelIdeal.Gen Cert.KernelIdeal.PayAt
open Cert.OnlineSoftmax

variable (x0 : Vec Ideal S2048x2048 .bf16) (x1 : Vec Ideal S256x2048 .f32) (r : Fin 2048) (a : ℕ → ℝ) (k : ℕ)

/-- The tile's logits of row `r` are the logits `a (k + b)`. -/
abbrev TileOf : Prop := ∀ b : Fin 256, ∑ h : Fin 2048, x0 (ix2 r h) * x1 (ix2 b h) = ((a (k + b.val) : ℝ) : EReal)

theorem tile_at (hs : TileOf x0 x1 r a k) (b : Fin 256) :
    k0_pay8 (F := Ideal) x0 x1 (ix2 r b) = ((a (k + b.val) : ℝ) : EReal) := by
  rw [logits_at]; exact hs b

/-- The row's new maximum. -/
theorem max_step (hs : TileOf x0 x1 r a k) (m0 : Vec Ideal S2048x1 .f32) (hm : m0 (ix2 r (0 : Fin 1)) = runMax a k) :
    k0_pay11 (F := Ideal) x0 x1 m0 (ix2 r (0 : Fin 1)) = runMax a (k + 256) := by
  rw [newMax_at, hm]
  exact runMax_step a k 256 _ (tile_at x0 x1 r a k hs)

/-- The row's new sum. -/
theorem sum_step (hs : TileOf x0 x1 r a k) (m0 l0 : Vec Ideal S2048x1 .f32) (hm : m0 (ix2 r (0 : Fin 1)) = runMax a k)
    (hl : l0 (ix2 r (0 : Fin 1)) = runSum a k) :
    k0_pay1 (F := Ideal) (k0_pay12 (F := Ideal) x0 x1 m0 m0) (k0_pay13 (F := Ideal) x0 x1 m0) l0 (ix2 r (0 : Fin 1))
      = runSum a (k + 256) := by
  rw [newSum_at, factor_at, max_step x0 x1 r a k hs m0 hm, hm, hl]
  rw [show (∑ b : Fin 256, k0_pay13 (F := Ideal) x0 x1 m0 (ix2 r b))
      = ∑ b : Fin 256, Ideal.exp (k0_pay8 (F := Ideal) x0 x1 (ix2 r b) - runMax a (k + 256)) from
    Finset.sum_congr rfl fun b _ => by rw [shifted_at, max_step x0 x1 r a k hs m0 hm]]
  exact runSum_step a k 256 (by norm_num) _ (tile_at x0 x1 r a k hs)

/-- The row's new picked logit. -/
theorem pick_step (hs : TileOf x0 x1 r a k) (i : grid0.Coords) (hk : k = 256 * (i 1).val) (hk32 : k + 256 ≤ 2 ^ 32)
    (yb : Vec Ideal S2048x1 .i32) (t0 : Vec Ideal S2048x1 .f32)
    (ht : t0 (ix2 r (0 : Fin 1)) = runPick a (yb (ix2 r (0 : Fin 1))).toNat k) :
    k0_pay10 (F := Ideal) i x0 x1 yb t0 (ix2 r (0 : Fin 1)) = runPick a (yb (ix2 r (0 : Fin 1))).toNat (k + 256) := by
  rw [newPick_at, ht]
  refine runPick_step a _ k 256 _ (tile_at x0 x1 r a k hs) _ fun b => ?_
  have hb := b.isLt
  constructor
  · intro h
    have := congrArg BitVec.toNat h
    rw [BitVec.toNat_ofNat, Nat.mod_eq_of_lt (by omega)] at this
    omega
  · intro h
    apply BitVec.eq_of_toNat_eq
    rw [BitVec.toNat_ofNat, Nat.mod_eq_of_lt (by omega)]
    omega

end Cert.KernelIdeal.RowStep

end
-- ==== Proof.Spec.lean ====
/-
  The value both programs compute, as one function of the three argument arrays.

  For finite inputs the logit of row `n` and class `v` is the real number `∑_h x[n,h] · W[v,h]`. Over the 32000
  logits of a row, `runMax`, `runSum` and `runPick` (the online log-sum-exp's three numbers) give the row's
  negative log-likelihood `(max + log ∑ exp (· − max)) − logit at the label`; a row whose label is the ignore
  index −100 (the word 4294967196) contributes nothing, and the loss is the sum over the other rows divided by
  their number, or by one if there is none.
-/
import proofs.«430946_j34849364640323_2_alg».proof.Proof.Softmax
import Idealize.ShloMosaic.Lib.ValueIdx

noncomputable section

namespace Cert.Spec

open Idealize.ShloMosaic Idealize.ShloMosaic.ValueIdx Cert.OnlineSoftmax

abbrev SX : Shape := ⟨2, ![8192, 2048]⟩
abbrev SW : Shape := ⟨2, ![32000, 2048]⟩
abbrev SY : Shape := ⟨1, ![8192]⟩

/-- The ignore index −100 as a 32-bit word. -/
abbrev ignoreWord : BitVec 32 := 4294967196#32

/-- The real logit of row `n` and class `v` (zero past the last class): the inputs' real parts contracted over
    the hidden axis. -/
def logit (x : SX.Idx → EReal) (W : SW.Idx → EReal) (n : Fin 8192) (v : ℕ) : ℝ :=
  if hv : v < 32000 then ∑ h : Fin 2048, (x (ix2 n h)).toReal * (W (ix2 (⟨v, hv⟩ : Fin 32000) h)).toReal else 0

/-- Row `n`'s negative log-likelihood of its label: log-sum-exp of the row minus the logit at the label. -/
def nllRow (x : SX.Idx → EReal) (W : SW.Idx → EReal) (y : SY.Idx → BitVec 32) (n : Fin 8192) : EReal :=
  (runMax (logit x W n) 32000 + Ideal.log (runSum (logit x W n) 32000)) - runPick (logit x W n) (y (ix1 n)).toNat 32000

/-- Whether row `n` counts: its label is not the ignore index. -/
abbrev counts (y : SY.Idx → BitVec 32) (n : Fin 8192) : Prop := ¬ y (ix1 n) = ignoreWord

/-- The mean negative log-likelihood over the rows that count. -/
def loss (x : SX.Idx → EReal) (W : SW.Idx → EReal) (y : SY.Idx → BitVec 32) : EReal :=
  Ideal.div (0 + ∑ n : Fin 8192, if counts y n then nllRow x W y n else 0)
    (max (0 + ∑ n : Fin 8192, if counts y n then (1 : EReal) else 0) 1)

/-- The coercion of a finite real sum is the sum of the coercions. -/
private theorem coe_sum {ι : Type*} (s : Finset ι) (g : ι → ℝ) :
    ((∑ v ∈ s, g v : ℝ) : EReal) = ∑ v ∈ s, (g v : EReal) := by
  classical
  refine Finset.induction_on s (by simp) ?_
  intro x s hx ih
  rw [Finset.sum_insert hx, Finset.sum_insert hx, EReal.coe_add, ih]

/-- For finite inputs the extended-real contraction is the real logit. -/
theorem contraction_eq_logit (x : SX.Idx → EReal) (W : SW.Idx → EReal)
    (hx : ∀ i, ∃ r : ℝ, x i = (r : EReal)) (hW : ∀ i, ∃ r : ℝ, W i = (r : EReal)) (n : Fin 8192) (v : Fin 32000) :
    ∑ h : Fin 2048, x (ix2 n h) * W (ix2 v h) = ((logit x W n v.val : ℝ) : EReal) := by
  rw [logit, dif_pos v.isLt, coe_sum]
  refine Finset.sum_congr rfl (fun h _ => ?_)
  obtain ⟨r, hr⟩ := hx (ix2 n h)
  obtain ⟨s, hs⟩ := hW (ix2 v h)
  simp only [Fin.eta]
  rw [hr, hs, EReal.toReal_coe, EReal.toReal_coe, EReal.coe_mul]

end Cert.Spec

end
-- ==== Proof.Invariant.lean ====
/-
  What the three carried scratch buffers hold after each grid point.

  Grid point `n` is row tile `n / 125` and class tile `n % 125`; row `r` of the tile is row `2048 · (n / 125) + r` of
  the batch, with real logits `a v = ∑_h x[row, h] · W[v, h]`. After point `n` the scratches hold, for every row of
  the tile, the running maximum, the running sum of shifted exponentials and the picked logit of that row's first
  `256 · (n % 125 + 1)` logits. By induction on the point: the first class tile of a row tile starts from the reset
  values (the bottom element, zero, zero: the three numbers after no logit), every other tile from what the point
  before left, which belongs to the same row tile.
-/
import proofs.«430946_j34849364640323_2_alg».proof.Proof.Blocks
import proofs.«430946_j34849364640323_2_alg».proof.Proof.Cases
import proofs.«430946_j34849364640323_2_alg».proof.Proof.RowStep
import proofs.«430946_j34849364640323_2_alg».proof.Proof.Spec

set_option maxRecDepth 16384

noncomputable section

namespace Cert.KernelIdeal.Invariant

open Idealize.ShloMosaic Idealize.ShloMosaic.TcCoe Idealize.SL.Sem Idealize.ShloMosaic.ValueIdx
open Cert.KernelIdeal Cert.KernelIdeal.Gen Cert.KernelIdeal.Blocks Cert.KernelIdeal.PayAt Cert.KernelIdeal.RowStep
open Cert.OnlineSoftmax

variable (m : (ℓ : Loc nD τ sig) → Buf (Elt Ideal) ℓ)

/-- The three argument arrays on core `c`. -/
abbrev argX (c : Dev nD) : Cert.Spec.SX.Idx → EReal := m ((c : Thread nD τ).loc main_arg0)
abbrev argW (c : Dev nD) : Cert.Spec.SW.Idx → EReal := m ((c : Thread nD τ).loc main_arg1)
abbrev argY (c : Dev nD) : Cert.Spec.SY.Idx → BitVec 32 := m ((c : Thread nD τ).loc main_arg2)

theorem nPoints : cfg0.N = 500 := N_0

/-- The batch row of row `r` of the tile of point `n`. -/
def rowOf (n : ℕ) (h : n < cfg0.N) (r : Fin 2048) : Fin 8192 :=
  ⟨2048 * (n / 125) + r.val, by have := nPoints; have := r.isLt; omega⟩

/-- The real logits of a batch row. -/
abbrev logitsOf (c : Dev nD) (row : Fin 8192) : ℕ → ℝ := Cert.Spec.logit (argX m c) (argW m c) row

/-- The class-tile coordinate of a point. -/
theorem coord1 : ∀ t : Fin cfg0.N, ((grid0.coords t) (1 : Fin 2)).val = t.val % 125 :=
  (by decide +kernel : ∀ t : Fin grid0.N, _)

section
variable (c : Dev nD) (hx : ∀ i, ∃ r : ℝ, argX m c i = (r : EReal)) (hW : ∀ i, ∃ r : ℝ, argW m c i = (r : EReal))
include hx hW

/-- The tile of point `t` holds, in row `r`, the row's logits `256 · (t % 125) + b`. -/
theorem tile_of (t : Fin cfg0.N) (r : Fin 2048) :
    TileOf (xblk m c t) (wblk m c t) r (logitsOf m c (rowOf t.val t.isLt r)) (256 * (t.val % 125)) := by
  intro b
  have hN := nPoints
  have hv : 256 * (t.val % 125) + b.val < 32000 := by have := t.isLt; have := b.isLt; omega
  have hn : 2048 * (t.val / 125) + r.val < 8192 := by have := t.isLt; have := r.isLt; omega
  rw [show (∑ h : Fin 2048, xblk m c t (ix2 r h) * wblk m c t (ix2 b h))
      = ∑ h : Fin 2048, argX m c (ix2 (rowOf t.val t.isLt r) h) * argW m c (ix2 (⟨256 * (t.val % 125) + b.val, hv⟩ : Fin 32000) h) from
    Finset.sum_congr rfl fun h _ => by rw [xblk_at m c t r h hn, wblk_at m c t b h hv]; rfl]
  exact Cert.Spec.contraction_eq_logit (argX m c) (argW m c) hx hW (rowOf t.val t.isLt r) ⟨256 * (t.val % 125) + b.val, hv⟩

/-- One point's update of one row, from any carried values that are the three numbers after `256 · (t % 125)` logits. -/
theorem row_update (t : Fin cfg0.N) (r : Fin 2048) (m0 l0 t0 : Vec Ideal S2048x1 .f32)
    (hm : m0 (ix2 r (0 : Fin 1)) = runMax (logitsOf m c (rowOf t.val t.isLt r)) (256 * (t.val % 125)))
    (hl : l0 (ix2 r (0 : Fin 1)) = runSum (logitsOf m c (rowOf t.val t.isLt r)) (256 * (t.val % 125)))
    (ht : t0 (ix2 r (0 : Fin 1)) = runPick (logitsOf m c (rowOf t.val t.isLt r)) (argY m c (ix1 (rowOf t.val t.isLt r))).toNat (256 * (t.val % 125))) :
    k0_pay2 (F := Ideal) (k0_pay11 (F := Ideal) (xblk m c t) (wblk m c t) m0) (ix2 r (0 : Fin 1))
        = runMax (logitsOf m c (rowOf t.val t.isLt r)) (256 * (t.val % 125 + 1))
    ∧ k0_pay1 (F := Ideal) (k0_pay12 (F := Ideal) (xblk m c t) (wblk m c t) m0 m0) (k0_pay13 (F := Ideal) (xblk m c t) (wblk m c t) m0) l0 (ix2 r (0 : Fin 1))
        = runSum (logitsOf m c (rowOf t.val t.isLt r)) (256 * (t.val % 125 + 1))
    ∧ k0_pay10 (F := Ideal) (grid0.coords t) (xblk m c t) (wblk m c t) (yblk m c t) t0 (ix2 r (0 : Fin 1))
        = runPick (logitsOf m c (rowOf t.val t.isLt r)) (argY m c (ix1 (rowOf t.val t.isLt r))).toNat (256 * (t.val % 125 + 1)) := by
  have hN := nPoints
  have hs := tile_of m c hx hW t r
  have hk : 256 * (t.val % 125 + 1) = 256 * (t.val % 125) + 256 := by ring
  have hn : 2048 * (t.val / 125) + r.val < 8192 := by have := t.isLt; have := r.isLt; omega
  have hy : yblk m c t (ix2 r (0 : Fin 1)) = argY m c (ix1 (rowOf t.val t.isLt r)) := yblk_at m c t r hn
  rw [hk]
  refine ⟨?_, ?_, ?_⟩
  · rw [storedMax_at]; exact max_step _ _ r _ _ hs m0 hm
  · exact sum_step _ _ r _ _ hs m0 l0 hm hl
  · have := pick_step (xblk m c t) (wblk m c t) r _ (256 * (t.val % 125)) hs (grid0.coords t)
      (by rw [coord1 t]) (by have := t.isLt; omega) (yblk m c t) t0 (by rw [hy]; exact ht)
    rw [hy] at this
    exact this

/-- After point `n`: every row's three numbers after `256 · (n % 125 + 1)` logits. -/
theorem scratch_after : ∀ (n : ℕ) (h : n < cfg0.N) (r : Fin 2048),
    (outsAt0 m c n h).2.2.1 (ix2 r (0 : Fin 1)) = runMax (logitsOf m c (rowOf n h r)) (256 * (n % 125 + 1))
    ∧ (outsAt0 m c n h).2.2.2.1 (ix2 r (0 : Fin 1)) = runSum (logitsOf m c (rowOf n h r)) (256 * (n % 125 + 1))
    ∧ (outsAt0 m c n h).2.2.2.2 (ix2 r (0 : Fin 1))
        = runPick (logitsOf m c (rowOf n h r)) (argY m c (ix1 (rowOf n h r))).toNat (256 * (n % 125 + 1)) := by
  intro n
  induction n with
  | zero =>
    intro h r
    have h0 : (⟨0, h⟩ : Fin cfg0.N).val % 125 = 0 := rfl
    have h1 : ¬(⟨0, h⟩ : Fin cfg0.N).val % 125 = 124 := by show ¬(0 % 125 = 124); norm_num
    obtain ⟨ea, eb, ec⟩ := Cases.first_tile m c ⟨0, h⟩ h0 h1
    obtain ⟨e0, e1, e2⟩ := row_update m c hx hW ⟨0, h⟩ r (k0_pay5 (F := Ideal)) (k0_pay6 (F := Ideal)) (k0_pay7 (F := Ideal))
      (by rw [resetMax_at]; exact (runMax_zero _).symm) (by rw [resetSum_at]; exact (runSum_zero _).symm)
      (by rw [resetPick_at]; exact (runPick_zero _ _).symm)
    exact ⟨(congrFun ea _).trans e0, (congrFun eb _).trans e1, (congrFun ec _).trans e2⟩
  | succ n ih =>
    intro h r
    have hN := nPoints
    by_cases h0 : (n + 1) % 125 = 0
    · -- the first class tile of a row tile: from the reset values
      have h1 : ¬(n + 1) % 125 = 124 := by omega
      obtain ⟨ea, eb, ec⟩ := Cases.first_tile m c ⟨n + 1, h⟩ h0 h1
      obtain ⟨e0, e1, e2⟩ := row_update m c hx hW ⟨n + 1, h⟩ r (k0_pay5 (F := Ideal)) (k0_pay6 (F := Ideal)) (k0_pay7 (F := Ideal))
        (by rw [resetMax_at]; show ⊥ = runMax _ (256 * ((n + 1) % 125)); rw [h0, Nat.mul_zero, runMax_zero])
        (by rw [resetSum_at]; show 0 = runSum _ (256 * ((n + 1) % 125)); rw [h0, Nat.mul_zero, runSum_zero])
        (by rw [resetPick_at]; show 0 = runPick _ _ (256 * ((n + 1) % 125)); rw [h0, Nat.mul_zero, runPick_zero])
      exact ⟨(congrFun ea _).trans e0, (congrFun eb _).trans e1, (congrFun ec _).trans e2⟩
    · -- a later class tile: from what the point before left, in the same row tile
      have hrow : rowOf n (Nat.lt_of_succ_lt h) r = rowOf (n + 1) h r := Fin.ext (by simp only [rowOf]; omega)
      have hk : 256 * (n % 125 + 1) = 256 * ((n + 1) % 125) := by omega
      obtain ⟨im, il, it⟩ := ih (Nat.lt_of_succ_lt h) r
      rw [hrow, hk] at im il it
      obtain ⟨e0, e1, e2⟩ := row_update m c hx hW ⟨n + 1, h⟩ r (Cases.prevMax m c ⟨n + 1, h⟩) (Cases.prevSum m c ⟨n + 1, h⟩)
        (Cases.prevPick m c ⟨n + 1, h⟩) im il it
      by_cases h1 : (n + 1) % 125 = 124
      · obtain ⟨ea, eb, ec, -, -⟩ := Cases.last_tile m c ⟨n + 1, h⟩ h0 h1
        exact ⟨(congrFun ea _).trans e0, (congrFun eb _).trans e1, (congrFun ec _).trans e2⟩
      · obtain ⟨ea, eb, ec⟩ := Cases.middle_tile m c ⟨n + 1, h⟩ h0 h1
        exact ⟨(congrFun ea _).trans e0, (congrFun eb _).trans e1, (congrFun ec _).trans e2⟩

end

end Cert.KernelIdeal.Invariant

end
-- ==== Proof.Arrays.lean ====
/-
  The two output arrays after the region.

  The last class tile of row tile `q` (grid point `125 · q + 124`) writes back rows `2048 · q …` of both outputs,
  and by then each row has consumed all `256 · 125 = 32000` logits: the first output holds every row's negative
  log-likelihood `(max + log sum) − picked logit`, the second `1` for a row that counts and `0` for one whose
  label is the ignore index. The four write-backs tile the arrays.
-/
import proofs.«430946_j34849364640323_2_alg».proof.Proof.Invariant
import Idealize.ShloMosaic.Lib.Pipeline.Value

set_option maxRecDepth 16384

noncomputable section

namespace Cert.KernelIdeal.Arrays

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.PayAt Cert.KernelIdeal.Invariant
open Cert.OnlineSoftmax

variable (m : (ℓ : Loc nD τ sig) → Buf (Elt Ideal) ℓ) (c : Dev nD)

/-- The batch row of an index of a column array. -/
def rowIdx (j : S8192x1.Idx) : Fin 8192 := ⟨(j 0).val, idx2_lt0 j⟩

/-- Every row's negative log-likelihood, as a column. -/
def nllArr : S8192x1.Idx → EReal := fun j => Cert.Spec.nllRow (argX m c) (argW m c) (argY m c) (rowIdx j)

/-- Every row's flag, as a column. -/
def flagArr : S8192x1.Idx → EReal := fun j => if argY m c (ix1 (rowIdx j)) = 4294967196#32 then 0 else 1

theorem index3 : ∀ t : Fin cfg0.N, win0_3.index t (0 : Fin 2) = t.val / 125 ∧ win0_3.index t (1 : Fin 2) = 0 :=
  (by decide +kernel : ∀ t : Fin grid0.N, _)
theorem index4 : ∀ t : Fin cfg0.N, win0_4.index t (0 : Fin 2) = t.val / 125 ∧ win0_4.index t (1 : Fin 2) = 0 :=
  (by decide +kernel : ∀ t : Fin grid0.N, _)

/-- At the last class tile of a row tile, row `j` of the stored flag says whether the row counts. -/
theorem flag_row (t : Fin cfg0.N) (j : S2048x1.Idx) :
    k0_pay4 (F := Ideal) (k0_pay9 (F := Ideal) (yblk m c t)) j
      = if argY m c (ix1 (rowOf t.val t.isLt ⟨(j 0).val, idx2_lt0 j⟩)) = 4294967196#32 then (0 : EReal) else 1 := by
  have hN := nPoints
  obtain ⟨r, q, rfl⟩ : ∃ (r : Fin 2048) (q : Fin 1), j = ix2 r q := ⟨j 0, j 1, eq_ix2 j⟩
  obtain rfl : q = 0 := Subsingleton.elim _ _
  have hn : 2048 * (t.val / 125) + r.val < 8192 := by have := t.isLt; have := r.isLt; omega
  rw [flag_at, yblk_at m c t r hn]
  rfl

/-- What a flushing point writes back into the second output is its rows of the flag column. -/
theorem flushed4_eq (t : Fin cfg0.N) (hf : (cfg0.win 4).flush t = true) :
    (dats m 0 c).flushed 4 t = ((cfg0.win 4).blk t).view.read (Elt Ideal) (flagArr m c) := by
  have hN := nPoints
  have h1 : t.val % 125 = 124 := (flush0_4 t).mp hf
  have h0 : ¬t.val % 125 = 0 := by omega
  show (cfg0.win 4).cut (grid0.coords t) ((dats m 0 c).after 4 t) = _
  rw [after0_4]
  obtain ⟨-, -, -, -, e4⟩ := Cases.last_tile m c t h0 h1
  rw [e4]
  funext j
  show k0_pay4 (F := Ideal) (k0_pay9 (F := Ideal) (yblk m c t)) j
      = if argY m c (ix1 (rowIdx (((cfg0.win 4).blk t).view.emb j))) = 4294967196#32 then (0 : EReal) else 1
  have hrow : rowIdx (((cfg0.win 4).blk t).view.emb j) = rowOf t.val t.isLt ⟨(j 0).val, idx2_lt0 j⟩ := Fin.ext (by
    show win0_4.index t 0 * 2048 + 1 * (j 0).val = 2048 * (t.val / 125) + (j 0).val
    rw [(index4 t).1]; omega)
  rw [hrow]
  exact flag_row m c t j

/-- Every index of the first output lies in the block of the last class tile of its row tile. -/
theorem cover3 (i : S8192x1.Idx) :
    ∃ t : Fin cfg0.N, (cfg0.win 3).flush t = true ∧ i ∈ ((cfg0.win 3).blk t).view.set := by
  have hN := nPoints
  have hi0 : (i 0).val < 8192 := idx2_lt0 i
  have hi1 : (i 1).val < 1 := idx2_lt1 i
  obtain ⟨t, ht⟩ : ∃ t : Fin cfg0.N, t.val = 125 * ((i 0).val / 2048) + 124 := ⟨⟨_, by omega⟩, rfl⟩
  refine ⟨t, (flush0_3 t).mpr (by omega), ?_⟩
  show i ∈ ((View.whole main_v2_0).slice (win0_3.rect t)).set
  rw [View.set_slice_whole, Rect.mem_set_unit]
  intro a
  match a with
  | ⟨0, _⟩ =>
    show win0_3.index t (0 : Fin 2) * 2048 ≤ (i 0).val ∧ (i 0).val < win0_3.index t (0 : Fin 2) * 2048 + 2048
    rw [(index3 t).1]; omega
  | ⟨1, _⟩ =>
    show win0_3.index t (1 : Fin 2) * 1 ≤ (i 1).val ∧ (i 1).val < win0_3.index t (1 : Fin 2) * 1 + 1
    rw [(index3 t).2]; omega

/-- The same for the second output. -/
theorem cover4 (i : S8192x1.Idx) :
    ∃ t : Fin cfg0.N, (cfg0.win 4).flush t = true ∧ i ∈ ((cfg0.win 4).blk t).view.set := by
  have hN := nPoints
  have hi0 : (i 0).val < 8192 := idx2_lt0 i
  have hi1 : (i 1).val < 1 := idx2_lt1 i
  obtain ⟨t, ht⟩ : ∃ t : Fin cfg0.N, t.val = 125 * ((i 0).val / 2048) + 124 := ⟨⟨_, by omega⟩, rfl⟩
  refine ⟨t, (flush0_4 t).mpr (by omega), ?_⟩
  show i ∈ ((View.whole main_v2_1).slice (win0_4.rect t)).set
  rw [View.set_slice_whole, Rect.mem_set_unit]
  intro a
  match a with
  | ⟨0, _⟩ =>
    show win0_4.index t (0 : Fin 2) * 2048 ≤ (i 0).val ∧ (i 0).val < win0_4.index t (0 : Fin 2) * 2048 + 2048
    rw [(index4 t).1]; omega
  | ⟨1, _⟩ =>
    show win0_4.index t (1 : Fin 2) * 1 ≤ (i 1).val ∧ (i 1).val < win0_4.index t (1 : Fin 2) * 1 + 1
    rw [(index4 t).2]; omega

/-- The second output after the region: the flag column. -/
theorem final4 : (dats m 0 c).arrAt 4 cfg0.N = flagArr m c :=
  (dats m 0 c).arrAt_eq_of_cover 4 (flagArr m c) (flushed4_eq m c) cover4

section
variable (hx : ∀ i, ∃ r : ℝ, argX m c i = (r : EReal)) (hW : ∀ i, ∃ r : ℝ, argW m c i = (r : EReal))
include hx hW

/-- At the last class tile of a row tile, row `j` of the stored loss is the row's negative log-likelihood. -/
theorem loss_row (t : Fin cfg0.N) (h0 : ¬t.val % 125 = 0) (h1 : t.val % 125 = 124) (j : S2048x1.Idx) :
    k0_pay3 (F := Ideal) (Cases.newMax m c t (Cases.prevMax m c t)) (Cases.newSum m c t (Cases.prevMax m c t) (Cases.prevSum m c t))
        (Cases.newPick m c t (Cases.prevPick m c t)) j
      = Cert.Spec.nllRow (argX m c) (argW m c) (argY m c) (rowOf t.val t.isLt ⟨(j 0).val, idx2_lt0 j⟩) := by
  have hN := nPoints
  obtain ⟨r, q, rfl⟩ : ∃ (r : Fin 2048) (q : Fin 1), j = ix2 r q := ⟨j 0, j 1, eq_ix2 j⟩
  obtain rfl : q = 0 := Subsingleton.elim _ _
  obtain ⟨ea, eb, ec, -, -⟩ := Cases.last_tile m c t h0 h1
  obtain ⟨im, il, it⟩ := scratch_after m c hx hW t.val t.isLt r
  rw [rowLoss_at, ← ea, ← eb, ← ec, im, il, it]
  have hk : 256 * (t.val % 125 + 1) = 32000 := by omega
  rw [hk]
  rfl

/-- What a flushing point writes back into the first output is its rows of the loss column. -/
theorem flushed3_eq (t : Fin cfg0.N) (hf : (cfg0.win 3).flush t = true) :
    (dats m 0 c).flushed 3 t = ((cfg0.win 3).blk t).view.read (Elt Ideal) (nllArr m c) := by
  have hN := nPoints
  have h1 : t.val % 125 = 124 := (flush0_3 t).mp hf
  have h0 : ¬t.val % 125 = 0 := by omega
  show (cfg0.win 3).cut (grid0.coords t) ((dats m 0 c).after 3 t) = _
  rw [after0_3]
  obtain ⟨-, -, -, e3, -⟩ := Cases.last_tile m c t h0 h1
  rw [e3]
  funext j
  show k0_pay3 (F := Ideal) (Cases.newMax m c t (Cases.prevMax m c t)) (Cases.newSum m c t (Cases.prevMax m c t) (Cases.prevSum m c t))
        (Cases.newPick m c t (Cases.prevPick m c t)) j
      = Cert.Spec.nllRow (argX m c) (argW m c) (argY m c) (rowIdx (((cfg0.win 3).blk t).view.emb j))
  have hrow : rowIdx (((cfg0.win 3).blk t).view.emb j) = rowOf t.val t.isLt ⟨(j 0).val, idx2_lt0 j⟩ := Fin.ext (by
    show win0_3.index t 0 * 2048 + 1 * (j 0).val = 2048 * (t.val / 125) + (j 0).val
    rw [(index3 t).1]; omega)
  rw [hrow]
  exact loss_row m c hx hW t h0 h1 j

/-- The first output after the region: the loss column. -/
theorem final3 : (dats m 0 c).arrAt 3 cfg0.N = nllArr m c :=
  (dats m 0 c).arrAt_eq_of_cover 3 (nllArr m c) (flushed3_eq m c hx hW) cover3

end

end Cert.KernelIdeal.Arrays

end
-- ==== Proof.Counting.lean ====
/-
  Counting the rows that satisfy a predicate, three ways that agree.

  Over the extended reals the count is a finite sum of ones and zeros: each summand is the coercion of the real
  number `1` or `0`, the coercion of a finite real sum is the sum of the coercions, and a real sum of indicator
  values is the cardinality of the set on which the predicate holds. The larger of a count and one is again a
  natural number, because the coercions `ℕ → ℝ → EReal` are monotone and so commute with `max`.

  Over 32-bit words the same sum of indicator words `1` and `0` is the cardinality read modulo `2 ^ 32`; a count
  below `2 ^ 31` has its top bit clear, so its two's-complement reading is the count itself.
-/
import Idealize.ShloMosaic.PureOps.Ideal
import Mathlib.Data.BitVec
import Mathlib.Algebra.BigOperators.Ring.Finset

noncomputable section

namespace Cert.Counting

/-- The coercion of a finite real sum is the sum of the coercions. -/
private theorem coe_sum {ι : Type*} (s : Finset ι) (g : ι → ℝ) :
    ((∑ v ∈ s, g v : ℝ) : EReal) = ∑ v ∈ s, (g v : EReal) := by
  classical
  refine Finset.induction_on s (by simp) ?_
  intro x s hx ih
  rw [Finset.sum_insert hx, Finset.sum_insert hx, EReal.coe_add, ih]

/-- An extended-real sum of indicator values is the number of indices at which the predicate holds. -/
theorem count_real (K : ℕ) (p : Fin K → Prop) [DecidablePred p] :
    (0 : EReal) + ∑ n : Fin K, (if p n then (1 : EReal) else 0) = (((Finset.univ.filter p).card : ℝ) : EReal) := by
  have h : ∀ n : Fin K, (if p n then (1 : EReal) else 0) = (((if p n then (1 : ℝ) else 0) : ℝ) : EReal) := by
    intro n
    split_ifs <;> simp
  rw [zero_add, Finset.sum_congr rfl (fun n _ => h n), ← coe_sum, Finset.sum_boole]

/-- The larger of a count and one is the coercion of the larger of the two natural numbers. -/
theorem max_count_one (k : ℕ) : max (((k : ℝ) : EReal)) 1 = (((max k 1 : ℕ) : ℝ) : EReal) := by
  rw [← EReal.coe_one, ← EReal.coe_strictMono.monotone.map_max, Nat.cast_max, Nat.cast_one]

/-- A sum of indicator words is the count as a word. -/
theorem count_words (K : ℕ) (hK : K < 2 ^ 31) (p : Fin K → Prop) [DecidablePred p] :
    (∑ n : Fin K, (if p n then (1#32 : BitVec 32) else 0#32)) = BitVec.ofNat 32 (Finset.univ.filter p).card := by
  have h : ∀ n : Fin K, (if p n then (1#32 : BitVec 32) else 0#32) = (if p n then (1 : BitVec 32) else 0) := by
    intro n
    rfl
  rw [Finset.sum_congr rfl (fun n _ => h n), Finset.sum_boole, BitVec.natCast_eq_ofNat]

/-- A count below `2 ^ 31` reads as itself in two's complement. -/
theorem toInt_count (k : ℕ) (hk : k < 2 ^ 31) : (BitVec.ofNat 32 k).toInt = (k : ℤ) := by
  have h1 : (BitVec.ofNat 32 k).toNat = k := by
    rw [BitVec.toNat_ofNat]
    exact Nat.mod_eq_of_lt (by omega)
  rw [BitVec.toInt_eq_toNat_cond, h1, if_pos (by omega)]

end Cert.Counting

end
-- ==== Proof.TailFn.lean ====
/-
  The host operations after the region, as one function of the two output columns, and its value.

  The tail drops the unit axis of both columns, counts the rows that count by summing their flags, keeps the loss
  of a row whose flag exceeds one half and zero otherwise, sums, and divides by the count or by one if the count
  is smaller. With the first column every row's negative log-likelihood and the second `1` or `0` as the row
  counts or not, this is the mean negative log-likelihood over the rows that count.
-/
import proofs.«430946_j34849364640323_2_alg».proof.Proof.Gen.KernelIdeal
import proofs.«430946_j34849364640323_2_alg».proof.Proof.Spec
import proofs.«430946_j34849364640323_2_alg».proof.Proof.Counting
import Idealize.ShloMosaic.PureOps.Ideal.Laws
import Idealize.ShloMosaic.Lib.Pipeline.Value
import Idealize.ShloMosaic.Lib.ValueIdx

noncomputable section

namespace Cert.KernelIdeal.Tail

open Idealize.ShloMosaic Idealize.ShloMosaic.ValueIdx Cert.KernelIdeal Cert.KernelIdeal.Gen

/-- The tail of @main: from the two output columns to the scalar result. -/
def tailFn {F : FTy → Type} [FloatOps F] (nll flag : (⟨S8192x1, .f32⟩ : BufTy).Contents (Elt F)) :
    (⟨S_, .f32⟩ : BufTy).Contents (Elt F) :=
  Host.divf
    (Host.reduceAdd
      (select (cmpf .ogt (shapeCast S8192 flag shapeCasts_S8192x1_S8192)
          (broadcastInDim S8192 ![] bcast_S_S8192 (constant S_ .f32 0x3F000000#32)))
        (shapeCast S8192 nll shapeCasts_S8192x1_S8192)
        (broadcastInDim S8192 ![] bcast_S_S8192 (id (constant S_ .f32 0x00000000#32))))
      (constant S_ .f32 0x00000000#32) reducesTo_S8192_S_d0 h_S_)
    (maximumf (Host.reduceAdd (shapeCast S8192 flag shapeCasts_S8192x1_S8192) (constant S_ .f32 0x00000000#32) reducesTo_S8192_S_d0 h_S_)
      (constant S_ .f32 0x3F800000#32))

/-- A rank-1 index set is its one coordinate range … -/
private def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The host's sum of a vector of 8192 entries into a scalar, from the zero word: `0` plus the sum of the entries. -/
private theorem total_at (v : FVec Ideal S8192 .f32) (h : S8192.ReducesTo [0] S_) (hu : 0 < S_.numel) (i : S_.Idx) :
    Host.reduceAdd (F := Ideal) v (constant S_ .f32 0x00000000#32) h hu i = 0 + ∑ n : Fin 8192, v (ix1 n) := by
  show Ideal.hostReduceAdd h v (Ideal.ofBits .f32 0x00000000#32) i = _
  rw [Ideal.hostReduceAdd_total h (fun b => b.elim0) v _ i, Ideal.ofBits_zero_f32, sum_idx1]

/-- A column with its unit axis dropped: entry `n` is the column's row `n`. -/
private theorem squeeze_at {α : Type} (col : S8192x1.Idx → α) (h : S8192x1.ShapeCasts S8192) (n : Fin 8192) :
    shapeCast S8192 col h (ix1 n) = col (ix2 n (0 : Fin 1)) := by
  refine shapeCast_apply col h (ix1 n) (ix2 n (0 : Fin 1)) ?_
  rw [Shape.rowMajor_val_one, Shape.rowMajor_val_two]
  show n.val * 1 + 0 = n.val
  omega

/-- The word `0x3F800000` denotes one. -/
private theorem ofBits_one : Ideal.ofBits .f32 0x3F800000#32 = 1 := by
  have h : Ideal.ofBits .f32 0x3F800000#32 = (((8388608 : ℝ) * ((2 : ℝ) ^ 23)⁻¹ : ℝ) : EReal) := by
    simp [Ideal.ofBits, Ideal.ieee]
  rw [h, ← EReal.coe_one]
  congr 1
  norm_num

/-- The word `0x3F000000` denotes one half. -/
private theorem ofBits_half : Ideal.ofBits .f32 0x3F000000#32 = ((1 / 2 : ℝ) : EReal) := by
  have h : Ideal.ofBits .f32 0x3F000000#32 = (((8388608 : ℝ) * ((2 : ℝ) ^ 24)⁻¹ : ℝ) : EReal) := by
    simp [Ideal.ofBits, Ideal.ieee]
  rw [h]
  congr 1
  norm_num

/-- The host's division read at an index. -/
private theorem hostDivf_at {s : Shape} {φ : FTy} (a b : FVec Ideal s φ) (i : s.Idx) :
    Host.divf a b i = Ideal.div (a i) (b i) := rfl

/-- With the columns holding every row's negative log-likelihood and flag, the tail is the loss. -/
theorem tailFn_value (x : Cert.Spec.SX.Idx → EReal) (W : Cert.Spec.SW.Idx → EReal) (y : Cert.Spec.SY.Idx → BitVec 32)
    (nll flag : S8192x1.Idx → EReal)
    (hn : ∀ j : S8192x1.Idx, nll j = Cert.Spec.nllRow x W y ⟨(j 0).val, idx2_lt0 j⟩)
    (hf : ∀ j : S8192x1.Idx, flag j = if y (ix1 (⟨(j 0).val, idx2_lt0 j⟩ : Fin 8192)) = 4294967196#32 then (0 : EReal) else 1) :
    tailFn (F := Ideal) nll flag = fun _ => Cert.Spec.loss x W y := by
  funext i
  unfold tailFn
  rw [hostDivf_at, maximumf_apply, total_at, total_at, constant_apply, ofBits_one]
  have hnum : ∀ n : Fin 8192,
      select (cmpf .ogt (shapeCast S8192 flag shapeCasts_S8192x1_S8192)
          (broadcastInDim S8192 ![] bcast_S_S8192 (constant (F := Ideal) S_ .f32 0x3F000000#32)))
        (shapeCast S8192 nll shapeCasts_S8192x1_S8192)
        (broadcastInDim S8192 ![] bcast_S_S8192 (id (constant (F := Ideal) S_ .f32 0x00000000#32))) (ix1 n)
      = if Cert.Spec.counts y n then Cert.Spec.nllRow x W y n else 0 := by
    intro n
    have hf' : flag (ix2 n (0 : Fin 1)) = if y (ix1 n) = 4294967196#32 then (0 : EReal) else 1 := hf (ix2 n (0 : Fin 1))
    have hn' : nll (ix2 n (0 : Fin 1)) = Cert.Spec.nllRow x W y n := hn (ix2 n (0 : Fin 1))
    show Scalar.select (Ideal.cmp .ogt (shapeCast S8192 flag shapeCasts_S8192x1_S8192 (ix1 n)) (Ideal.ofBits .f32 0x3F000000#32))
        (shapeCast S8192 nll shapeCasts_S8192x1_S8192 (ix1 n)) (Ideal.ofBits .f32 0x00000000#32) = _
    rw [squeeze_at, squeeze_at, ofBits_half, Ideal.ofBits_zero_f32, hf', hn']
    by_cases hy : y (ix1 n) = 4294967196#32
    · rw [if_pos hy, if_neg (not_not.mpr hy)]
      have hlt : ¬ ((1 / 2 : ℝ) : EReal) < 0 := not_lt.mpr (by exact_mod_cast (by norm_num : (0 : ℝ) ≤ 1 / 2))
      simp only [Ideal.cmp, hlt, decide_false]
      exact select_zero _ _
    · rw [if_neg hy, if_pos hy]
      have hlt : ((1 / 2 : ℝ) : EReal) < 1 := by exact_mod_cast (by norm_num : (1 / 2 : ℝ) < 1)
      simp only [Ideal.cmp, hlt, decide_true]
      exact select_one _ _
  have hden : ∀ n : Fin 8192, shapeCast S8192 flag shapeCasts_S8192x1_S8192 (ix1 n)
      = if Cert.Spec.counts y n then (1 : EReal) else 0 := by
    intro n
    have hf' : flag (ix2 n (0 : Fin 1)) = if y (ix1 n) = 4294967196#32 then (0 : EReal) else 1 := hf (ix2 n (0 : Fin 1))
    rw [squeeze_at, hf']
    exact (ite_not _ _ _).symm
  rw [Finset.sum_congr rfl (fun n _ => hnum n), Finset.sum_congr rfl (fun n _ => hden n)]
  rfl

end Cert.KernelIdeal.Tail

end
-- ==== Proof.Tail.lean ====
/-
  The result buffer after the host operations that follow the region: the tail function of the two output
  arrays as the region leaves them.
-/
import proofs.«430946_j34849364640323_2_alg».proof.Proof.Gen.KernelIdeal.Frame
import proofs.«430946_j34849364640323_2_alg».proof.Proof.TailFn
import Idealize.ShloMosaic.Lib.Pipeline.Value
import Idealize.ShloMosaic.Lib.StableHlo.Run

set_option maxRecDepth 16384

noncomputable section

namespace Cert.KernelIdeal.Tail

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- After the tail the result buffer holds the tail function of the two output arrays after the region. -/
theorem tail_eq (c : Dev nD) :
    Pipeline.afterTail₀ cfgs (dats m) 0 (V0 m) [hostOps1, hostOps1_1, hostOps1_2] c main_v11
      = tailFn (F := F) ((dats m 0 c).arrAt 3 cfg0.N) ((dats m 0 c).arrAt 4 cfg0.N) := by
  -- at the two output arrays' own buffers the contents after the region are the arrays as the region leaves them
  have e (w : Fin cfg0.W) : Pipeline.withArrays spec0 c (V0 m c) (fun w => (dats m 0 c).arrAt w cfg0.N) (Proc.devRef .tc (Pipeline.arrRef spec0 w))
      = (dats m 0 c).arrAt w cfg0.N := Pipeline.withArrays_arr spec0 launch0.win.arr_inj c _ _ w
  have e3 : Pipeline.withArrays spec0 c (V0 m c) (fun w => (dats m 0 c).arrAt w cfg0.N) (Proc.devRef .tc main_v2_0)
      = (dats m 0 c).arrAt 3 cfg0.N := e 3
  have e4 : Pipeline.withArrays spec0 c (V0 m c) (fun w => (dats m 0 c).arrAt w cfg0.N) (Proc.devRef .tc main_v2_1)
      = (dats m 0 c).arrAt 4 cfg0.N := e 4
  clear e
  unfold Pipeline.afterTail₀
  show StableHlo.after _ (Pipeline.withArrays spec0 c (V0 m c) (fun w => (dats m 0 c).arrAt w cfg0.N)) (Proc.devRef .tc main_v11) = _
  -- the tail reads the contents before it only at those two buffers: each of its sixteen operations writes a buffer of
  -- its own, and the result is their composition, the tail function of the two arrays
  generalize Pipeline.withArrays spec0 c (V0 m c) (fun w => (dats m 0 c).arrAt w cfg0.N) = Wv at *
  generalize (dats m 0 c).arrAt 3 cfg0.N = X3 at *
  generalize (dats m 0 c).arrAt 4 cfg0.N = X4 at *
  simp only [hostOps1, hostOps1_1, hostOps1_2, List.flatten_cons, List.flatten_nil, List.append_nil, List.cons_append, List.nil_append]
  after_results
  (try simp only [StableHlo.TRef.ofBuf, StableHlo.TRef.toBuf, cast_eq])
  rw [e3, e4]
  unfold tailFn
  rfl

end Cert.KernelIdeal.Tail

end
-- ==== Proof.KernelValue.lean ====
/-
  The kernel program's run, with its result named.

  Every weakly fair execution of the idealized kernel program terminates with the three arguments unchanged and,
  for finite inputs, with the scalar result at the specification's loss: the region leaves the two output columns
  holding every row's negative log-likelihood and flag, and the host operations after the region reduce them to
  the mean over the rows that count.
-/
import proofs.«430946_j34849364640323_2_alg».proof.Proof.Arrays
import proofs.«430946_j34849364640323_2_alg».proof.Proof.Tail

set_option maxRecDepth 16384

noncomputable section

namespace Cert.KernelIdeal.KernelValue

open Idealize.ShloMosaic Idealize.ShloMosaic.TcCoe Idealize.SL.Sem
open Idealize.ShloMosaic.Pipeline (Dat)
open Cert.KernelIdeal Cert.KernelIdeal.Gen Cert.KernelIdeal.Invariant Cert.KernelIdeal.Arrays

variable (m : (ℓ : Loc nD τ sig) → Buf (Elt Ideal) ℓ) (ρ : Dev nD → PrngReg)

/-- The result buffer after the tail is the loss of the three arguments. -/
theorem result_eq (c : Dev nD) (hx : ∀ i, ∃ r : ℝ, argX m c i = (r : EReal)) (hW : ∀ i, ∃ r : ℝ, argW m c i = (r : EReal)) :
    Pipeline.afterTail₀ cfgs (dats m) 0 (V0 m) [hostOps1, hostOps1_1, hostOps1_2] c main_v11
      = fun _ => Cert.Spec.loss (argX m c) (argW m c) (argY m c) := by
  rw [Tail.tail_eq m c, final3 m c hx hW, final4 m c]
  exact Tail.tailFn_value (argX m c) (argW m c) (argY m c) (nllArr m c) (flagArr m c) (fun j => rfl) (fun j => rfl)

/-- The run. -/
theorem run (hx : ∀ c i, ∃ r : ℝ, argX m c i = (r : EReal)) (hW : ∀ c i, ∃ r : ℝ, argW m c i = (r : EReal)) :
    θ_run defs (onTc (τ := τ) (main (F := Ideal))) ⟨m, fun _ => 0, ρ⟩ (fun r => ∀ c : Dev nD,
      r.2.mem ((c.tc : Thread nD τ).loc main_v11) = (fun _ => Cert.Spec.loss (argX m c) (argW m c) (argY m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v11 (Pipeline.mem_restRefs_of main_v11 (by decide) (by decide))).trans (result_eq m c (hx c) (hW c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KernelValue

end
-- ==== Proof.RefStages.lean ====
/-
  The reference's run, read stage by stage.

  The reference is a straight line of 61 host operations, each writing a buffer of its own that no later
  operation writes again. So after the whole line every buffer holds its operation's function of what the line
  leaves in that operation's operands, and the arguments hold what they held: the result buffer is the last
  stage's value as a function of the three arguments, each stage applied to the stages before it (a division of
  a masked sum by a count, over a negated gather out of a log-softmax of a matrix product).
-/
import proofs.«430946_j34849364640323_2_alg».proof.Proof.RefRead

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Every weakly fair execution of the reference terminates with the result buffer at the fold of its
    operations over the launch contents and the three arguments unchanged. -/
theorem run_fold (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15) = after (ops (F := F)) (launchContents m c) (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨h c main_v15,
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

/-! ## A straight line whose operations each write one buffer, once

Let `A` be what a line of operations leaves from some contents. If each operation writes exactly one buffer and the
buffers written are pairwise distinct, then a buffer keeps, to the end of the line, what its operation wrote, and an
operation's operands — written before it or never — are read at what the whole line leaves in them. So `A` at an
operation's result is the operation's function of `A` at its operands. The statements below peel the line from the front:
`Tail A l W` says `A` is what the remaining line `l` leaves from some contents, and `l` writes the references `W`, in order. -/

section Line

variable {τ' : Topo} {sig' : RefSig} {Val : EltTy → Type}

/-- Each operation of the line writes exactly the one reference listed beside it. -/
inductive WritesOne : List (HloOp τ' sig' Val) → List (Ref sig' .tc) → Prop
  | nil : WritesOne [] []
  | cons {op : HloOp τ' sig' Val} {l : List (HloOp τ' sig' Val)} {w : Ref sig' .tc} {W : List (Ref sig' .tc)} :
      op.writes = {Proc.devRef .tc w} → WritesOne l W → WritesOne (op :: l) (w :: W)

/-- A reference the line does not write keeps its contents. -/
theorem WritesOne.keeps : ∀ {l : List (HloOp τ' sig' Val)} {W : List (Ref sig' .tc)}, WritesOne l W →
    ∀ {r : Ref sig' .tc}, r ∉ W → ∀ V : Valuation τ' sig' Val, after l V (Proc.devRef .tc r) = V (Proc.devRef .tc r)
  | _, _, .nil, _, _, _ => rfl
  | _, _, .cons (op := op) (w := w) hw hl, r, hr, V => by
    rw [after_cons, WritesOne.keeps hl (fun h => hr (List.mem_cons_of_mem _ h)) (op.result V),
      op.result_of_not_mem V (by
        rw [hw, Finset.mem_singleton]
        exact devRef_ne_of_ne (fun e => hr (e ▸ List.mem_cons_self)))]

/-- `A` is what the line `l` leaves from some contents, and `l` writes the references `W`, in order. -/
structure Tail (A : Valuation τ' sig' Val) (l : List (HloOp τ' sig' Val)) (W : List (Ref sig' .tc)) : Prop where
  run : ∃ V, A = after l V
  writes : WritesOne l W

namespace Tail

variable {A : Valuation τ' sig' Val} {op : HloOp τ' sig' Val} {l : List (HloOp τ' sig' Val)} {w : Ref sig' .tc} {W : List (Ref sig' .tc)}

/-- Past the first operation. -/
theorem next (h : Tail A (op :: l) (w :: W)) : Tail A l W := by
  obtain ⟨⟨V, e⟩, hw⟩ := h
  cases hw with
  | cons _ hl => exact ⟨⟨op.result V, e⟩, hl⟩

/-- The first operation's result buffer, not written again, holds at the end what the operation left in it, and every
    reference the line does not write holds what it held before the operation. -/
theorem head (h : Tail A (op :: l) (w :: W)) (hw : w ∉ W) :
    ∃ V, A (Proc.devRef .tc w) = op.result V (Proc.devRef .tc w) ∧ ∀ r : Ref sig' .tc, r ∉ w :: W → A (Proc.devRef .tc r) = V (Proc.devRef .tc r) := by
  obtain ⟨⟨V, e⟩, hws⟩ := h
  subst e
  refine ⟨V, ?_, fun r hr => hws.keeps hr V⟩
  cases hws with
  | cons _ hl => rw [after_cons, hl.keeps hw]

variable {x a b c y : Ref sig' .tc}

theorem nullary {v : y.ty.Contents Val} {hy} (h : Tail A (StableHlo.nullary y v hy :: l) (y :: W)) (hw : y ∉ W) :
    A (Proc.devRef .tc y) = v := by
  obtain ⟨V, e, _⟩ := h.head hw
  rw [e, nullary_result]

theorem unary {f : x.ty.Contents Val → y.ty.Contents Val} {hx hy} (h : Tail A (StableHlo.unary x y f hx hy :: l) (y :: W))
    (hw : y ∉ W) (hx' : x ∉ y :: W) : A (Proc.devRef .tc y) = f (A (Proc.devRef .tc x)) := by
  obtain ⟨V, e, k⟩ := h.head hw
  rw [e, unary_result, k x hx']

theorem binary {f : a.ty.Contents Val → b.ty.Contents Val → y.ty.Contents Val} {ha hb hy}
    (h : Tail A (StableHlo.binary a b y f ha hb hy :: l) (y :: W)) (hw : y ∉ W) (ha' : a ∉ y :: W) (hb' : b ∉ y :: W) :
    A (Proc.devRef .tc y) = f (A (Proc.devRef .tc a)) (A (Proc.devRef .tc b)) := by
  obtain ⟨V, e, k⟩ := h.head hw
  rw [e, binary_result, k a ha', k b hb']

theorem ternary {f : c.ty.Contents Val → a.ty.Contents Val → b.ty.Contents Val → y.ty.Contents Val} {hc ha hb hy}
    (h : Tail A (StableHlo.ternary c a b y f hc ha hb hy :: l) (y :: W)) (hw : y ∉ W) (hc' : c ∉ y :: W) (ha' : a ∉ y :: W)
    (hb' : b ∉ y :: W) : A (Proc.devRef .tc y) = f (A (Proc.devRef .tc c)) (A (Proc.devRef .tc a)) (A (Proc.devRef .tc b)) := by
  obtain ⟨V, e, k⟩ := h.head hw
  rw [e, ternary_result, k c hc', k a ha', k b hb']

theorem reshape {he : x.ty.elt = y.ty.elt} {hn : x.ty.shape.ShapeCasts y.ty.shape} {hx hy}
    (h : Tail A (StableHlo.reshape (Val := Val) x y he hn hx hy :: l) (y :: W)) (hw : y ∉ W) (hx' : x ∉ y :: W) :
    A (Proc.devRef .tc y) = fun i => he ▸ shapeCast y.ty.shape (A (Proc.devRef .tc x)) hn i := by
  obtain ⟨V, e, k⟩ := h.head hw
  rw [e, reshape_result, k x hx']

end Tail

end Line

/-- The references the reference's 61 operations write, in program order. -/
abbrev outs : List (Ref sig .tc) :=
  [main_v0, main_call0_cst, main_call0_v0, main_call0_cst_0, main_call0_v1, main_call0_v2, main_call0_v3, main_call0_v4, main_call0_v5, main_call0_v6, main_call0_cst_1, main_call0_v7, main_call0_v8, main_call0_v9, main_call0_v10, main_v1, main_c, main_v2, main_v3, main_c_0, main_call1_v0, main_call1_v1, main_v4, main_v5, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v6, main_v7, main_v8, main_v9, main_c_1, main_v10, main_cst, main_call3_v0, main_call3_v1, main_v11, main_cst_2, main_v12, main_c_3, main_v13, main_v14, main_v15]

/-- Each of the reference's operations writes exactly its own result buffer. -/
theorem writes_ops : WritesOne (ops (F := F)) outs := by
  repeat (first | exact .nil | refine .cons rfl ?_)

/-- The fold of the operations at the result buffer is the last stage of the three arguments: in program order, each
    result buffer holds at the end its stage of the arguments, by the operation's equation and the stages before it. -/
theorem fold_eq_stage (m : (ℓ : Loc nD τ sig) → Buf (Elt F) ℓ) (c : Dev nD) :
    after (ops (F := F)) (launchContents m c) (Proc.devRef .tc main_v15)
      = val_main_v15 (F := F) (m ((c.tc : Thread nD τ).loc main_arg0)) (m ((c.tc : Thread nD τ).loc main_arg1)) (m ((c.tc : Thread nD τ).loc main_arg2)) := by
  have a0 : after (ops (F := F)) (launchContents m c) (Proc.devRef .tc main_arg0) = m ((c.tc : Thread nD τ).loc main_arg0) :=
    writes_ops.keeps (by decide) _
  have a1 : after (ops (F := F)) (launchContents m c) (Proc.devRef .tc main_arg1) = m ((c.tc : Thread nD τ).loc main_arg1) :=
    writes_ops.keeps (by decide) _
  have a2 : after (ops (F := F)) (launchContents m c) (Proc.devRef .tc main_arg2) = m ((c.tc : Thread nD τ).loc main_arg2) :=
    writes_ops.keeps (by decide) _
  have t0 : Tail (after (ops (F := F)) (launchContents m c)) (ops (F := F)) outs := ⟨⟨_, rfl⟩, writes_ops⟩
  generalize after (ops (F := F)) (launchContents m c) = A at *
  generalize m ((c.tc : Thread nD τ).loc main_arg0) = x0 at *
  generalize m ((c.tc : Thread nD τ).loc main_arg1) = x1 at *
  generalize m ((c.tc : Thread nD τ).loc main_arg2) = x2 at *
  have h_main_v0 : A (Proc.devRef .tc main_v0) = val_main_v0 (F := F) x0 x1 := by
    have s := t0.binary (by decide) (by decide) (by decide)
    simp only [a0, a1] at s
    exact s
  have t1 := t0.next
  have h_main_call0_cst : A (Proc.devRef .tc main_call0_cst) = val_main_call0_cst (F := F) := by
    have s := t1.nullary (by decide)
    simp only [TRef.ofBuf, TRef.toBuf, cast_eq] at s
    exact s
  have t2 := t1.next
  have h_main_call0_v0 : A (Proc.devRef .tc main_call0_v0) = val_main_call0_v0 (F := F) x0 x1 := by
    have s := t2.binary (by decide) (by decide) (by decide)
    simp only [TRef.ofBuf, TRef.toBuf, cast_eq, h_main_v0, h_main_call0_cst] at s
    exact s
  have t3 := t2.next
  have h_main_call0_cst_0 : A (Proc.devRef .tc main_call0_cst_0) = val_main_call0_cst_0 (F := F) := by
    have s := t3.nullary (by decide)
    simp only [TRef.ofBuf, TRef.toBuf, cast_eq] at s
    exact s
  have t4 := t3.next
  have h_main_call0_v1 : A (Proc.devRef .tc main_call0_v1) = val_main_call0_v1 (F := F) := by
    have s := t4.unary (by decide) (by decide)
    simp only [TRef.ofBuf, TRef.toBuf, cast_eq, h_main_call0_cst_0] at s
    exact s
  have t5 := t4.next
  have h_main_call0_v2 : A (Proc.devRef .tc main_call0_v2) = val_main_call0_v2 (F := F) x0 x1 := by
    have s := t5.binary (by decide) (by decide) (by decide)
    simp only [TRef.ofBuf, TRef.toBuf, cast_eq, h_main_call0_v1, h_main_call0_v0] at s
    exact s
  have t6 := t5.next
  have h_main_call0_v3 : A (Proc.devRef .tc main_call0_v3) = val_main_call0_v3 (F := F) x0 x1 := by
    have s := t6.unary (by decide) (by decide)
    simp only [TRef.ofBuf, TRef.toBuf, cast_eq, h_main_call0_v2] at s
    exact s
  have t7 := t6.next
  have h_main_call0_v4 : A (Proc.devRef .tc main_call0_v4) = val_main_call0_v4 (F := F) x0 x1 := by
    have s := t7.unary (by decide) (by decide)
    simp only [TRef.ofBuf, TRef.toBuf, cast_eq, h_main_call0_v3] at s
    exact s
  have t8 := t7.next
  have h_main_call0_v5 : A (Proc.devRef .tc main_call0_v5) = val_main_call0_v5 (F := F) x0 x1 := by
    have s := t8.binary (by decide) (by decide) (by decide)
    simp only [TRef.ofBuf, TRef.toBuf, cast_eq, h_main_v0, h_main_call0_v4] at s
    exact s
  have t9 := t8.next
  have h_main_call0_v6 : A (Proc.devRef .tc main_call0_v6) = val_main_call0_v6 (F := F) x0 x1 := by
    have s := t9.unary (by decide) (by decide)
    simp only [TRef.ofBuf, TRef.toBuf, cast_eq, h_main_call0_v5] at s
    exact s
  have t10 := t9.next
  have h_main_call0_cst_1 : A (Proc.devRef .tc main_call0_cst_1) = val_main_call0_cst_1 (F := F) := by
    have s := t10.nullary (by decide)
    simp only [TRef.ofBuf, TRef.toBuf, cast_eq] at s
    exact s
  have t11 := t10.next
  have h_main_call0_v7 : A (Proc.devRef .tc main_call0_v7) = val_main_call0_v7 (F := F) x0 x1 := by
    have s := t11.binary (by decide) (by decide) (by decide)
    simp only [TRef.ofBuf, TRef.toBuf, cast_eq, h_main_call0_v6, h_main_call0_cst_1] at s
    exact s
  have t12 := t11.next
  have h_main_call0_v8 : A (Proc.devRef .tc main_call0_v8) = val_main_call0_v8 (F := F) x0 x1 := by
    have s := t12.unary (by decide) (by decide)
    simp only [TRef.ofBuf, TRef.toBuf, cast_eq, h_main_call0_v7] at s
    exact s
  have t13 := t12.next
  have h_main_call0_v9 : A (Proc.devRef .tc main_call0_v9) = val_main_call0_v9 (F := F) x0 x1 := by
    have s := t13.unary (by decide) (by decide)
    simp only [TRef.ofBuf, TRef.toBuf, cast_eq, h_main_call0_v8] at s
    exact s
  have t14 := t13.next
  have h_main_call0_v10 : A (Proc.devRef .tc main_call0_v10) = val_main_call0_v10 (F := F) x0 x1 := by
    have s := t14.unary (by decide) (by decide)
    simp only [TRef.ofBuf, TRef.toBuf, cast_eq, h_main_call0_v9] at s
    exact s
  have t15 := t14.next
  have h_main_v1 : A (Proc.devRef .tc main_v1) = val_main_v1 (F := F) x0 x1 := by
    have s := t15.binary (by decide) (by decide) (by decide)
    simp only [TRef.ofBuf, TRef.toBuf, cast_eq, h_main_call0_v5, h_main_call0_v10] at s
    exact s
  have t16 := t15.next
  have h_main_c : A (Proc.devRef .tc main_c) = val_main_c (F := F) := by
    have s := t16.nullary (by decide)
    exact s
  have t17 := t16.next
  have h_main_v2 : A (Proc.devRef .tc main_v2) = val_main_v2 (F := F) := by
    have s := t17.unary (by decide) (by decide)
    simp only [h_main_c] at s
    exact s
  have t18 := t17.next
  have h_main_v3 : A (Proc.devRef .tc main_v3) = val_main_v3 (F := F) x2 := by
    have s := t18.binary (by decide) (by decide) (by decide)
    simp only [a2, h_main_v2] at s
    exact s
  have t19 := t18.next
  have h_main_c_0 : A (Proc.devRef .tc main_c_0) = val_main_c_0 (F := F) := by
    have s := t19.nullary (by decide)
    exact s
  have t20 := t19.next
  have h_main_call1_v0 : A (Proc.devRef .tc main_call1_v0) = val_main_call1_v0 (F := F) := by
    have s := t20.unary (by decide) (by decide)
    simp only [TRef.ofBuf, TRef.toBuf, cast_eq, h_main_c_0] at s
    exact s
  have t21 := t20.next
  have h_main_call1_v1 : A (Proc.devRef .tc main_call1_v1) = val_main_call1_v1 (F := F) := by
    have s := t21.unary (by decide) (by decide)
    simp only [TRef.ofBuf, TRef.toBuf, cast_eq, h_main_call1_v0] at s
    exact s
  have t22 := t21.next
  have h_main_v4 : A (Proc.devRef .tc main_v4) = val_main_v4 (F := F) x2 := by
    have s := t22.ternary (by decide) (by decide) (by decide) (by decide)
    simp only [TRef.ofBuf, TRef.toBuf, cast_eq, h_main_v3, a2, h_main_call1_v1] at s
    exact s
  have t23 := t22.next
  have h_main_v5 : A (Proc.devRef .tc main_v5) = val_main_v5 (F := F) x2 := by
    have s := t23.unary (by decide) (by decide)
    simp only [h_main_v4] at s
    exact s
  have t24 := t23.next
  have h_main_call2_c : A (Proc.devRef .tc main_call2_c) = val_main_call2_c (F := F) := by
    have s := t24.nullary (by decide)
    simp only [TRef.ofBuf, TRef.toBuf, cast_eq] at s
    exact s
  have t25 := t24.next
  have h_main_call2_v0 : A (Proc.devRef .tc main_call2_v0) = val_main_call2_v0 (F := F) := by
    have s := t25.unary (by decide) (by decide)
    simp only [TRef.ofBuf, TRef.toBuf, cast_eq, h_main_call2_c] at s
    exact s
  have t26 := t25.next
  have h_main_call2_v1 : A (Proc.devRef .tc main_call2_v1) = val_main_call2_v1 (F := F) x2 := by
    have s := t26.binary (by decide) (by decide) (by decide)
    simp only [TRef.ofBuf, TRef.toBuf, cast_eq, h_main_v5, h_main_call2_v0] at s
    exact s
  have t27 := t26.next
  have h_main_call2_c_0 : A (Proc.devRef .tc main_call2_c_0) = val_main_call2_c_0 (F := F) := by
    have s := t27.nullary (by decide)
    simp only [TRef.ofBuf, TRef.toBuf, cast_eq] at s
    exact s
  have t28 := t27.next
  have h_main_call2_v2 : A (Proc.devRef .tc main_call2_v2) = val_main_call2_v2 (F := F) := by
    have s := t28.unary (by decide) (by decide)
    simp only [TRef.ofBuf, TRef.toBuf, cast_eq, h_main_call2_c_0] at s
    exact s
  have t29 := t28.next
  have h_main_call2_v3 : A (Proc.devRef .tc main_call2_v3) = val_main_call2_v3 (F := F) x2 := by
    have s := t29.binary (by decide) (by decide) (by decide)
    simp only [TRef.ofBuf, TRef.toBuf, cast_eq, h_main_v5, h_main_call2_v2] at s
    exact s
  have t30 := t29.next
  have h_main_call2_v4 : A (Proc.devRef .tc main_call2_v4) = val_main_call2_v4 (F := F) x2 := by
    have s := t30.ternary (by decide) (by decide) (by decide) (by decide)
    simp only [TRef.ofBuf, TRef.toBuf, cast_eq, h_main_call2_v1, h_main_call2_v3, h_main_v5] at s
    exact s
  have t31 := t30.next
  have h_main_call2_v5 : A (Proc.devRef .tc main_call2_v5) = val_main_call2_v5 (F := F) x2 := by
    have s := t31.reshape (by decide) (by decide)
    simp only [TRef.ofBuf, TRef.toBuf, cast_eq, h_main_call2_v4] at s
    exact s
  have t32 := t31.next
  have h_main_call2_c_1 : A (Proc.devRef .tc main_call2_c_1) = val_main_call2_c_1 (F := F) := by
    have s := t32.nullary (by decide)
    simp only [TRef.ofBuf, TRef.toBuf, cast_eq] at s
    exact s
  have t33 := t32.next
  have h_main_call2_c_2 : A (Proc.devRef .tc main_call2_c_2) = val_main_call2_c_2 (F := F) := by
    have s := t33.nullary (by decide)
    simp only [TRef.ofBuf, TRef.toBuf, cast_eq] at s
    exact s
  have t34 := t33.next
  have h_main_call2_v6 : A (Proc.devRef .tc main_call2_v6) = val_main_call2_v6 (F := F) := by
    have s := t34.unary (by decide) (by decide)
    simp only [TRef.ofBuf, TRef.toBuf, cast_eq, h_main_call2_c_2] at s
    exact s
  have t35 := t34.next
  have h_main_call2_v7 : A (Proc.devRef .tc main_call2_v7) = val_main_call2_v7 (F := F) x2 := by
    have s := t35.binary (by decide) (by decide) (by decide)
    simp only [TRef.ofBuf, TRef.toBuf, cast_eq, h_main_call2_v5, h_main_call2_v6] at s
    exact s
  have t36 := t35.next
  have h_main_call2_v8 : A (Proc.devRef .tc main_call2_v8) = val_main_call2_v8 (F := F) := by
    have s := t36.unary (by decide) (by decide)
    simp only [TRef.ofBuf, TRef.toBuf, cast_eq, h_main_call2_c_1] at s
    exact s
  have t37 := t36.next
  have h_main_call2_v9 : A (Proc.devRef .tc main_call2_v9) = val_main_call2_v9 (F := F) := by
    have s := t37.unary (by decide) (by decide)
    simp only [TRef.ofBuf, TRef.toBuf, cast_eq, h_main_call2_v8] at s
    exact s
  have t38 := t37.next
  have h_main_call2_v10 : A (Proc.devRef .tc main_call2_v10) = val_main_call2_v10 (F := F) x2 := by
    have s := t38.binary (by decide) (by decide) (by decide)
    simp only [TRef.ofBuf, TRef.toBuf, cast_eq, h_main_call2_v5, h_main_call2_v9] at s
    exact s
  have t39 := t38.next
  have h_main_call2_v11 : A (Proc.devRef .tc main_call2_v11) = val_main_call2_v11 (F := F) x2 := by
    have s := t39.binary (by decide) (by decide) (by decide)
    simp only [TRef.ofBuf, TRef.toBuf, cast_eq, h_main_call2_v7, h_main_call2_v10] at s
    exact s
  have t40 := t39.next
  have h_main_call2_c_3 : A (Proc.devRef .tc main_call2_c_3) = val_main_call2_c_3 (F := F) := by
    have s := t40.nullary (by decide)
    simp only [TRef.ofBuf, TRef.toBuf, cast_eq] at s
    exact s
  have t41 := t40.next
  have h_main_call2_v12 : A (Proc.devRef .tc main_call2_v12) = val_main_call2_v12 (F := F) x2 := by
    have s := t41.binary (by decide) (by decide) (by decide)
    simp only [TRef.ofBuf, TRef.toBuf, cast_eq, h_main_call2_v11, h_main_call2_c_3] at s
    exact s
  have t42 := t41.next
  have h_main_call2_v13 : A (Proc.devRef .tc main_call2_v13) = val_main_call2_v13 (F := F) x0 x1 x2 := by
    have s := t42.binary (by decide) (by decide) (by decide)
    simp only [TRef.ofBuf, TRef.toBuf, cast_eq, h_main_v1, h_main_call2_v5] at s
    exact s
  have t43 := t42.next
  have h_main_call2_cst : A (Proc.devRef .tc main_call2_cst) = val_main_call2_cst (F := F) := by
    have s := t43.nullary (by decide)
    simp only [TRef.ofBuf, TRef.toBuf, cast_eq] at s
    exact s
  have t44 := t43.next
  have h_main_call2_v14 : A (Proc.devRef .tc main_call2_v14) = val_main_call2_v14 (F := F) := by
    have s := t44.unary (by decide) (by decide)
    simp only [TRef.ofBuf, TRef.toBuf, cast_eq, h_main_call2_cst] at s
    exact s
  have t45 := t44.next
  have h_main_v6 : A (Proc.devRef .tc main_v6) = val_main_v6 (F := F) x0 x1 x2 := by
    have s := t45.ternary (by decide) (by decide) (by decide) (by decide)
    simp only [TRef.ofBuf, TRef.toBuf, cast_eq, h_main_call2_v12, h_main_call2_v13, h_main_call2_v14] at s
    exact s
  have t46 := t45.next
  have h_main_v7 : A (Proc.devRef .tc main_v7) = val_main_v7 (F := F) x0 x1 x2 := by
    have s := t46.reshape (by decide) (by decide)
    simp only [TRef.ofBuf, TRef.toBuf, cast_eq, h_main_v6] at s
    exact s
  have t47 := t46.next
  have h_main_v8 : A (Proc.devRef .tc main_v8) = val_main_v8 (F := F) x0 x1 x2 := by
    have s := t47.unary (by decide) (by decide)
    simp only [h_main_v7] at s
    exact s
  have t48 := t47.next
  have h_main_v9 : A (Proc.devRef .tc main_v9) = val_main_v9 (F := F) x2 := by
    have s := t48.unary (by decide) (by decide)
    simp only [h_main_v3] at s
    exact s
  have t49 := t48.next
  have h_main_c_1 : A (Proc.devRef .tc main_c_1) = val_main_c_1 (F := F) := by
    have s := t49.nullary (by decide)
    exact s
  have t50 := t49.next
  have h_main_v10 : A (Proc.devRef .tc main_v10) = val_main_v10 (F := F) x2 := by
    have s := t50.binary (by decide) (by decide) (by decide)
    simp only [h_main_v9, h_main_c_1] at s
    exact s
  have t51 := t50.next
  have h_main_cst : A (Proc.devRef .tc main_cst) = val_main_cst (F := F) := by
    have s := t51.nullary (by decide)
    exact s
  have t52 := t51.next
  have h_main_call3_v0 : A (Proc.devRef .tc main_call3_v0) = val_main_call3_v0 (F := F) := by
    have s := t52.unary (by decide) (by decide)
    simp only [TRef.ofBuf, TRef.toBuf, cast_eq, h_main_cst] at s
    exact s
  have t53 := t52.next
  have h_main_call3_v1 : A (Proc.devRef .tc main_call3_v1) = val_main_call3_v1 (F := F) := by
    have s := t53.unary (by decide) (by decide)
    simp only [TRef.ofBuf, TRef.toBuf, cast_eq, h_main_call3_v0] at s
    exact s
  have t54 := t53.next
  have h_main_v11 : A (Proc.devRef .tc main_v11) = val_main_v11 (F := F) x0 x1 x2 := by
    have s := t54.ternary (by decide) (by decide) (by decide) (by decide)
    simp only [TRef.ofBuf, TRef.toBuf, cast_eq, h_main_v3, h_main_v8, h_main_call3_v1] at s
    exact s
  have t55 := t54.next
  have h_main_cst_2 : A (Proc.devRef .tc main_cst_2) = val_main_cst_2 (F := F) := by
    have s := t55.nullary (by decide)
    exact s
  have t56 := t55.next
  have h_main_v12 : A (Proc.devRef .tc main_v12) = val_main_v12 (F := F) x0 x1 x2 := by
    have s := t56.binary (by decide) (by decide) (by decide)
    simp only [h_main_v11, h_main_cst_2] at s
    exact s
  have t57 := t56.next
  have h_main_c_3 : A (Proc.devRef .tc main_c_3) = val_main_c_3 (F := F) := by
    have s := t57.nullary (by decide)
    exact s
  have t58 := t57.next
  have h_main_v13 : A (Proc.devRef .tc main_v13) = val_main_v13 (F := F) x2 := by
    have s := t58.binary (by decide) (by decide) (by decide)
    simp only [h_main_v10, h_main_c_3] at s
    exact s
  have t59 := t58.next
  have h_main_v14 : A (Proc.devRef .tc main_v14) = val_main_v14 (F := F) x2 := by
    have s := t59.unary (by decide) (by decide)
    simp only [h_main_v13] at s
    exact s
  have t60 := t59.next
  have h_main_v15 : A (Proc.devRef .tc main_v15) = val_main_v15 (F := F) x0 x1 x2 := by
    have s := t60.binary (by decide) (by decide) (by decide)
    simp only [h_main_v12, h_main_v14] at s
    exact s
  exact h_main_v15

/-- The reference's run with its result named: the last stage of the arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15) = val_main_v15 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (fold_eq_stage m c), (h c).2⟩) (run_fold m ρ)

end Cert.ReferenceIdeal.Stages

end
-- ==== Proof.RefValue.lean ====
/-
  The reference read as a value: its one result, the mean negative log-likelihood, as a function of the three
  argument arrays. For finite inputs and labels in range, the reference's last stage — the masked sum of the
  negated gathered log-softmax entries, divided by the count of rows that are not ignored (at least one) — is
  the loss of the specification: the row maximum is the running maximum after all 32000 classes, the sum of
  shifted exponentials the running sum, the gathered entry `(logit at the label − max) − log sum`, whose negation
  is the row's negative log-likelihood; a label in range is never wrapped and never out of bounds, and an
  ignored row gathers class 0 but is masked to zero.
-/
import proofs.«430946_j34849364640323_2_alg».proof.Proof.RefRead
import proofs.«430946_j34849364640323_2_alg».proof.Proof.Spec
import proofs.«430946_j34849364640323_2_alg».proof.Proof.Counting
import Idealize.ShloMosaic.Lib.StableHlo.Predicate

noncomputable section

namespace Cert.ReferenceIdeal.RefValue

open Idealize.ShloMosaic Idealize.ShloMosaic.TcCoe Idealize.SL.Sem
open Cert.ReferenceIdeal Cert.ReferenceIdeal.Gen Cert.ReferenceIdeal.ReadP
open Idealize.ShloMosaic.ValueIdx Idealize.ShloMosaic.StableHlo.Predicate Cert.OnlineSoftmax Cert.Spec

section Rows

variable (x : (⟨S8192x2048, .f32⟩ : BufTy).Contents (Elt Ideal)) (W : (⟨S32000x2048, .f32⟩ : BufTy).Contents (Elt Ideal))
  (y : (⟨S8192, .i32⟩ : BufTy).Contents (Elt Ideal))
  (hx : ∀ i, ∃ r : ℝ, x i = (r : EReal)) (hW : ∀ i, ∃ r : ℝ, W i = (r : EReal))

include hx hW in
/-- The dot product at row n and class v is the real logit. -/
theorem logits_at (n : Fin 8192) (v : Fin 32000) :
    val_main_v0 (F := Ideal) x W (ix2 n v) = ((logit x W n v.val : ℝ) : EReal) := by
  rw [val_main_v0_apply, ← contraction_eq_logit x W hx hW n v]
  refine Finset.sum_congr rfl fun k _ => ?_
  have e1 : lidx_main_v0 (ix2 n v) k = ix2 n k := by
    funext a; match a with | ⟨0, _⟩ => rfl | ⟨1, _⟩ => rfl
  have e2 : ridx_main_v0 (ix2 n v) k = ix2 v k := by
    funext a; match a with | ⟨0, _⟩ => rfl | ⟨1, _⟩ => rfl
  rw [e1, e2]

/-- The word with sign bit set, all-ones exponent and zero fraction denotes minus infinity. -/
theorem ofBits_neg_inf : Ideal.ofBits .f32 0xFF800000#32 = (⊥ : EReal) := by
  simp [Ideal.ofBits, Ideal.ieee]

include hx hW in
/-- The row maximum, folded from minus infinity over the 32000 classes, is the running maximum after all of them. -/
theorem rowmax_at (n : Fin 8192) :
    val_main_call0_v0 (F := Ideal) x W (ix1 n) = runMax (logit x W n) 32000 := by
  unfold val_main_call0_v0
  rw [Host.reduce_eq_fold_single FloatOps.maximumf _ _ reducesTo_S8192x32000_S8192_d1 (by decide) h_S_]
  have hb : val_main_call0_cst (F := Ideal) (Shape.Idx.first h_S_) = (⊥ : EReal) := by
    rw [val_main_call0_cst_apply, Ideal.ofBits_def, ofBits_neg_inf]
  rw [hb]
  refine runMax_univ (logit x W n) 32000 _ (fun v => ?_)
  have e : Shape.Reduces.lift (s := S8192x32000) (t := S8192) (a := 1) (by decide) (ix1 n) v = ix2 n v := by
    funext a; match a with | ⟨0, _⟩ => rfl | ⟨1, _⟩ => rfl
  show val_main_v0 (F := Ideal) x W (Shape.Reduces.lift (s := S8192x32000) (t := S8192) (a := 1) (by decide) (ix1 n) v) = _
  rw [e, logits_at x W hx hW]

include hx hW in
/-- A shifted logit: the logit minus the row's maximum (the maximum with minus infinity changes nothing). -/
theorem shifted_at (n : Fin 8192) (v : Fin 32000) :
    val_main_call0_v5 (F := Ideal) x W (ix2 n v) = ((logit x W n v.val : ℝ) : EReal) - runMax (logit x W n) 32000 := by
  have e4 : idx_main_call0_v4 (ix2 n v) = ix2 n (0 : Fin 1) := by
    funext a; match a with | ⟨0, _⟩ => rfl | ⟨1, _⟩ => rfl
  have e3 : idx_main_call0_v3 (ix2 n (0 : Fin 1)) = ix1 n := by
    funext a; match a with | ⟨0, _⟩ => rfl
  rw [val_main_call0_v5_apply, val_main_call0_v4_apply, e4, val_main_call0_v3_apply, e3, val_main_call0_v2_apply,
    val_main_call0_v1_apply, val_main_call0_cst_0_apply, rowmax_at x W hx hW, logits_at x W hx hW]
  simp only [Ideal.subf_def, Ideal.maximumf_def, Ideal.ofBits_def, ofBits_neg_inf]
  rw [max_eq_right bot_le]

include hx hW in
/-- The row's sum of shifted exponentials is the running sum after all classes. -/
theorem rowsum_at (n : Fin 8192) :
    val_main_call0_v7 (F := Ideal) x W (ix1 n) = runSum (logit x W n) 32000 := by
  rw [val_main_call0_v7_apply, val_main_call0_cst_1_apply, Ideal.ofBits_def, Ideal.ofBits_zero_f32, zero_add]
  rw [← runSum_univ (logit x W n) 32000 (fun v => ((logit x W n v.val : ℝ) : EReal)) (fun v => rfl)]
  refine Finset.sum_congr rfl fun k _ => ?_
  have e : idx_main_call0_v7 (ix1 n) k = ix2 n k := by
    funext a; match a with | ⟨0, _⟩ => rfl | ⟨1, _⟩ => rfl
  rw [e, val_main_call0_v6_apply, shifted_at x W hx hW, Ideal.hostUnary_exp_def]

include hx hW in
/-- The log-softmax entry at row n and class v: the shifted logit minus the logarithm of the row's sum. -/
theorem logsoftmax_at (n : Fin 8192) (v : Fin 32000) :
    val_main_v1 (F := Ideal) x W (ix2 n v)
      = (((logit x W n v.val : ℝ) : EReal) - runMax (logit x W n) 32000) - Ideal.log (runSum (logit x W n) 32000) := by
  have e10 : idx_main_call0_v10 (ix2 n v) = ix2 n (0 : Fin 1) := by
    funext a; match a with | ⟨0, _⟩ => rfl | ⟨1, _⟩ => rfl
  have e8 : idx_main_call0_v8 (ix2 n (0 : Fin 1)) = ix1 n := by
    funext a; match a with | ⟨0, _⟩ => rfl
  rw [val_main_v1_apply, shifted_at x W hx hW, val_main_call0_v10_apply, e10, val_main_call0_v9_apply,
    val_main_call0_v8_apply, e8, rowsum_at x W hx hW, Ideal.hostUnary_log_def, Ideal.subf_def]

/-- The safe label of a row: class 0 for an ignored row, the label itself otherwise. -/
def lab (n : Fin 8192) : BitVec 32 := if y (ix1 n) = ignoreWord then 0#32 else y (ix1 n)

/-- The mask of counted rows: one bit per row, set when the label is not the ignore index. -/
theorem ne_mask_at (n : Fin 8192) :
    val_main_v3 (F := Ideal) y (ix1 n) = if y (ix1 n) = ignoreWord then 0#1 else 1#1 := by
  rw [val_main_v3_apply, val_main_v2_apply, val_main_c_apply]
  unfold IntOp.cmpi
  by_cases h : y (ix1 n) = ignoreWord
  · rw [if_pos h, h]; rfl
  · rw [if_neg h]
    have : (y (ix1 n) != 4294967196#32) = true := by simpa using h
    simp only [this]; rfl

/-- The label the gather is given: the row's own label when it counts, class 0 when it is ignored. -/
theorem safe_label_at (n : Fin 8192) : val_main_v4 (F := Ideal) y (ix1 n) = lab y n := by
  rw [val_main_v4_apply, ne_mask_at, val_main_call1_v1_apply, val_main_call1_v0_apply, val_main_c_0_apply]
  unfold lab
  by_cases h : y (ix1 n) = ignoreWord
  · rw [if_pos h, if_pos h, select_zero]
  · rw [if_neg h, if_neg h, select_one]

/-- A word below 32000 is not negative, lies in [0, 31999], and reads the same signed and unsigned. -/
theorem word_small (w : BitVec 32) (hw : w.toNat < 32000) :
    IntOp.cmpi .slt w 0#32 = 0#1 ∧ IntOp.cmpi .sge w 0#32 = 1#1 ∧ IntOp.cmpi .sle w 31999#32 = 1#1 ∧ w.toInt.toNat = w.toNat := by
  have hw' : w.toNat < 2 ^ 31 := by omega
  refine ⟨?_, ?_, ?_, ?_⟩
  · apply eq_zero_of_ne_one
    rw [slt_iff_toNat hw' (by decide)]
    simp
  · rw [sge_iff_toNat hw' (by decide)]; simp
  · rw [sle_iff_toNat hw' (by decide)]
    show w.toNat ≤ 31999
    omega
  · rw [toInt_eq_toNat_of_lt hw']; rfl

/-- The gather of take-along-the-class-axis, read at row n: the operand at row n and at the start index read signed
    and clamped into [0, 31999]. -/
theorem gather_at {α : Type} {w : Nat} (L : S8192x32000.Idx → α) (idx : IVec S8192x1x1 w) (n : Fin 8192) :
    Host.gather gather_S8192x32000_S8192x1x1_S8192x1_n_1_0_0_1_2_11 L idx (ix2 n (0 : Fin 1))
      = L (ix2 n ⟨min (idx (ix3 n (0 : Fin 1) (0 : Fin 1))).toInt.toNat 31999, by omega⟩) := by
  unfold Host.gather
  congr 1
  funext a
  refine Fin.ext ?_
  match a with
  | ⟨0, _⟩ =>
    show gather_S8192x32000_S8192x1x1_S8192x1_n_1_0_0_1_2_11.start (ix2 n (0 : Fin 1)) idx 0
      + gather_S8192x32000_S8192x1x1_S8192x1_n_1_0_0_1_2_11.batchCoord (ix2 n (0 : Fin 1)) 0
      + gather_S8192x32000_S8192x1x1_S8192x1_n_1_0_0_1_2_11.offCoord (ix2 n (0 : Fin 1)) 0 = n.val
    have hb : (0 : Fin 2) ∈ gather_S8192x32000_S8192x1x1_S8192x1_n_1_0_0_1_2_11.operandBatchingDims := List.mem_singleton.mpr rfl
    rw [GatherDims.start_batching _ _ _ _ hb,
      GatherDims.offCoord_eq_zero _ _ _ (fun h => ((GatherDims.mem_sKept _ _).mp h).2 hb), Nat.zero_add, Nat.add_zero]
    unfold GatherDims.batchCoord
    rw [dif_pos hb]
    rfl
  | ⟨1, _⟩ =>
    show gather_S8192x32000_S8192x1x1_S8192x1_n_1_0_0_1_2_11.start (ix2 n (0 : Fin 1)) idx 1
      + gather_S8192x32000_S8192x1x1_S8192x1_n_1_0_0_1_2_11.batchCoord (ix2 n (0 : Fin 1)) 1
      + gather_S8192x32000_S8192x1x1_S8192x1_n_1_0_0_1_2_11.offCoord (ix2 n (0 : Fin 1)) 1 = _
    have hc : (1 : Fin 2) ∈ gather_S8192x32000_S8192x1x1_S8192x1_n_1_0_0_1_2_11.collapsedSliceDims := List.mem_singleton.mpr rfl
    have hnb : (1 : Fin 2) ∉ gather_S8192x32000_S8192x1x1_S8192x1_n_1_0_0_1_2_11.operandBatchingDims := by
      intro h; exact absurd (List.mem_singleton.mp h) (by decide)
    have hm : (1 : Fin 2) ∈ gather_S8192x32000_S8192x1x1_S8192x1_n_1_0_0_1_2_11.startIndexMap := List.mem_singleton.mpr rfl
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : gather_S8192x32000_S8192x1x1_S8192x1_n_1_0_0_1_2_11.siIdx (ix2 n (0 : Fin 1))
        ⟨List.idxOf (1 : Fin 2) gather_S8192x32000_S8192x1x1_S8192x1_n_1_0_0_1_2_11.startIndexMap,
          List.idxOf_lt_length_iff.2 hm⟩ = ix3 n (0 : Fin 1) (0 : Fin 1) := by
      funext b; refine Fin.ext ?_
      match b with
      | ⟨0, _⟩ => rfl
      | ⟨1, _⟩ => rfl
      | ⟨2, _⟩ => rfl
    rw [hsi]
    rfl

/-- A fold over a one-element index type is one application of the operation. -/
theorem fold_fin_one {α : Type} (op : α → α → α) [Std.Commutative op] [Std.Associative op] (b : α) (K : ℕ) (hK : K = 1)
    (f : Fin K → α) : (Finset.univ : Finset (Fin K)).fold op b f = op (f ⟨0, by omega⟩) b := by
  subst hK
  rw [Finset.univ_unique, Finset.fold_singleton]
  rfl

/-- The start index the gather reads for row n is the row's safe label: it is not negative, so it is not wrapped. -/
theorem index_at (n : Fin 8192) (hlab : (lab y n).toNat < 32000) :
    val_main_call2_v5 (F := Ideal) y (ix3 n (0 : Fin 1) (0 : Fin 1)) = lab y n := by
  have e5 : idx_main_call2_v5 (ix3 n (0 : Fin 1) (0 : Fin 1)) = ix2 n (0 : Fin 1) := by
    funext a; refine Fin.ext ?_
    match a with
    | ⟨0, _⟩ => show ((n.val * 1 + 0) * 1 + 0) / 1 = n.val; omega
    | ⟨1, _⟩ => rfl
  have ev5 : idx_main_v5 (ix2 n (0 : Fin 1)) = ix1 n := by
    funext a; match a with | ⟨0, _⟩ => rfl
  have hv5 : val_main_v5 (F := Ideal) y (ix2 n (0 : Fin 1)) = lab y n := by
    rw [val_main_v5_apply, ev5, safe_label_at]
  rw [val_main_call2_v5_apply, e5, val_main_call2_v4_apply, val_main_call2_v1_apply, hv5, val_main_call2_v0_apply,
    val_main_call2_c_apply, (word_small _ hlab).1, select_zero]

/-- The in-bounds mask of row n is set: the start index lies in [0, 31999]. -/
theorem inbounds_at (n : Fin 8192) (hlab : (lab y n).toNat < 32000) :
    val_main_call2_v12 (F := Ideal) y (ix2 n (0 : Fin 1)) = 1#1 := by
  unfold val_main_call2_v12
  rw [Host.reduce_eq_fold_single IntOp.andi _ _ reducesTo_S8192x1x1_S8192x1_d2 (by decide) h_S_]
  refine (fold_fin_one IntOp.andi _ _ rfl _).trans ?_
  have e : Shape.Reduces.lift (s := S8192x1x1) (t := S8192x1) (a := 2) (by decide) (ix2 n (0 : Fin 1)) ⟨0, by decide⟩
      = ix3 n (0 : Fin 1) (0 : Fin 1) := by
    funext a; match a with | ⟨0, _⟩ => rfl | ⟨1, _⟩ => rfl | ⟨2, _⟩ => rfl
  show IntOp.andi (val_main_call2_v11 (F := Ideal) y (Shape.Reduces.lift (s := S8192x1x1) (t := S8192x1) (a := 2) (by decide) (ix2 n (0 : Fin 1)) ⟨0, by decide⟩)) _ = _
  have e9 : idx_main_call2_v9 (ix3 n (0 : Fin 1) (0 : Fin 1)) = ix3 (0 : Fin 1) (0 : Fin 1) (0 : Fin 1) := by
    funext a; match a with | ⟨0, _⟩ => rfl | ⟨1, _⟩ => rfl | ⟨2, _⟩ => rfl
  rw [e, val_main_call2_c_3_apply, val_main_call2_v11_apply, val_main_call2_v7_apply, val_main_call2_v10_apply,
    index_at y n hlab, val_main_call2_v6_apply, val_main_call2_c_2_apply, val_main_call2_v9_apply, val_main_call2_v8_apply,
    val_main_call2_c_1_apply, (word_small _ hlab).2.1, (word_small _ hlab).2.2.1]
  rfl

include hx hW in
/-- Row n's summand: the row's negative log-likelihood when it counts, zero when its label is the ignore index. -/
theorem row_at (n : Fin 8192) (hyn : y (ix1 n) = ignoreWord ∨ (y (ix1 n)).toNat < 32000) :
    val_main_v11 (F := Ideal) x W y (ix1 n) = if counts y n then nllRow x W y n else 0 := by
  rw [val_main_v11_apply, ne_mask_at]
  by_cases h : y (ix1 n) = ignoreWord
  · rw [if_pos h, select_zero, if_neg (not_not.mpr h), val_main_call3_v1_apply, val_main_call3_v0_apply,
      val_main_cst_apply, Ideal.ofBits_def, Ideal.ofBits_zero_f32]
  · have hlt : (y (ix1 n)).toNat < 32000 := hyn.resolve_left h
    have hl : lab y n = y (ix1 n) := by unfold lab; rw [if_neg h]
    have hlab : (lab y n).toNat < 32000 := by rw [hl]; exact hlt
    have e7 : idx_main_v7 (ix1 n) = ix2 n (0 : Fin 1) := by
      funext a; refine Fin.ext ?_
      match a with
      | ⟨0, _⟩ => show n.val / 1 = n.val; omega
      | ⟨1, _⟩ => rfl
    have key : ∀ k : Fin 32000, k.val = (y (ix1 n)).toNat →
        FloatOps.hostNegf (F := Ideal) (φ := FTy.f32) (val_main_v1 (F := Ideal) x W (ix2 n k)) = nllRow x W y n := by
      intro k hk
      rw [logsoftmax_at x W hx hW, hk]
      simp only [Ideal.hostNegf_def, Ideal.negf_def]
      unfold nllRow
      rw [nll_eq _ hlt]
    rw [if_neg h, select_one, if_pos h, val_main_v8_apply, val_main_v7_apply, e7, val_main_v6_apply,
      inbounds_at y n hlab, select_one]
    unfold val_main_call2_v13
    rw [gather_at]
    refine key _ ?_
    show min (val_main_call2_v5 (F := Ideal) y (ix3 n (0 : Fin 1) (0 : Fin 1))).toInt.toNat 31999 = _
    rw [index_at y n hlab, hl, (word_small _ hlt).2.2.2]
    omega

/-- A rank-1 index set of extent 8192 is its coordinate's range. -/
def idxEquiv1 : S8192.Idx ≃ Fin 8192 where
  toFun i := i 0
  invFun n := ix1 n
  left_inv i := (eq_ix1 i).symm
  right_inv _ := rfl

/-- The integer count of the counted rows, as a word: the sum of the widened mask over all rows. -/
theorem count_at (i : S_.Idx) :
    val_main_v10 (F := Ideal) y i = BitVec.ofNat 32 (Finset.univ.filter (counts y)).card := by
  unfold val_main_v10
  rw [Host.reduce_eq_fold IntOp.addi _ _ reducesTo_S8192_S_d0 h_S_, val_main_c_1_apply]
  have hf : (Finset.univ.filter fun j : S8192.Idx => reducesTo_S8192_S_d0.drop j = i) = Finset.univ := by
    apply Finset.filter_true_of_mem
    intro j _
    funext a
    exact a.elim0
  have hs : Finset.fold IntOp.addi 0#32 (val_main_v9 (F := Ideal) y) (Finset.univ : Finset S8192.Idx)
      = ∑ j : S8192.Idx, val_main_v9 (F := Ideal) y j := (Finset.sum_eq_fold _ _).symm
  rw [hf, hs, ← Cert.Counting.count_words 8192 (by norm_num) (counts y)]
  refine Fintype.sum_equiv idxEquiv1 _ _ (fun j => ?_)
  obtain ⟨n, rfl⟩ : ∃ n, j = ix1 n := ⟨j 0, eq_ix1 j⟩
  show val_main_v9 (F := Ideal) y (ix1 n) = if counts y n then 1#32 else 0#32
  rw [val_main_v9_apply, ne_mask_at]
  by_cases h : y (ix1 n) = ignoreWord
  · rw [if_pos h, if_neg (not_not.mpr h)]; rfl
  · rw [if_neg h, if_pos h]; rfl

/-- The larger of a small count and one, as words compared signed. -/
theorem maxsi_count (k : ℕ) (hk : k < 2 ^ 31) : IntOp.maxsi (BitVec.ofNat 32 k) 1#32 = BitVec.ofNat 32 (max k 1) := by
  unfold IntOp.maxsi
  have h1 : (1#32 : BitVec 32).toInt = 1 := by decide
  have hk' := toInt_ofNat_small k hk
  simp only [BitVec.slt, h1, hk', decide_eq_true_eq]
  split_ifs with h
  · congr 1; omega
  · have : max k 1 = 1 := by omega
    rw [this]

end Rows

/-- The reference's last stage is the specification's loss. -/
theorem ref_value (x : (⟨S8192x2048, .f32⟩ : BufTy).Contents (Elt Ideal)) (W : (⟨S32000x2048, .f32⟩ : BufTy).Contents (Elt Ideal))
    (y : (⟨S8192, .i32⟩ : BufTy).Contents (Elt Ideal))
    (hx : ∀ i, ∃ r : ℝ, x i = (r : EReal)) (hW : ∀ i, ∃ r : ℝ, W i = (r : EReal))
    (hy : ∀ n, y n = 4294967196#32 ∨ (y n).toNat < 32000) :
    val_main_v15 (F := Ideal) x W y = fun _ => Cert.Spec.loss x W y := by
  funext i
  have hnum : ∑ j : S8192.Idx, val_main_v11 (F := Ideal) x W y j
      = ∑ n : Fin 8192, if counts y n then nllRow x W y n else 0 := by
    refine Fintype.sum_equiv idxEquiv1 _ _ (fun j => ?_)
    obtain ⟨n, rfl⟩ : ∃ n, j = ix1 n := ⟨j 0, eq_ix1 j⟩
    exact row_at x W y hx hW n (hy (ix1 n))
  have hcard : (Finset.univ.filter (counts y)).card < 2 ^ 31 := by
    have := Finset.card_filter_le (Finset.univ : Finset (Fin 8192)) (counts y)
    rw [Finset.card_univ, Fintype.card_fin] at this
    omega
  have hden : FloatOps.sitofp (F := Ideal) .f32 (IntOp.maxsi (val_main_v10 (F := Ideal) y i) 1#32)
      = max ((0 : EReal) + ∑ n : Fin 8192, if counts y n then (1 : EReal) else 0) 1 := by
    rw [count_at, maxsi_count _ hcard, Cert.Counting.count_real 8192 (counts y), Cert.Counting.max_count_one]
    show (((BitVec.ofNat 32 (max (Finset.univ.filter (counts y)).card 1)).toInt : ℝ) : EReal) = _
    rw [Cert.Counting.toInt_count _ (by omega)]
    norm_cast
  rw [val_main_v15_apply, val_main_v12_apply, val_main_v14_apply, val_main_v13_apply, val_main_cst_2_apply,
    val_main_c_3_apply, hden, hnum, Ideal.hostDivf_def, Ideal.ofBits_def, Ideal.ofBits_zero_f32]
  rfl

end Cert.ReferenceIdeal.RefValue

end
-- ==== Proof.lean ====
/-
  A fused cross-entropy kernel against its jnp reference, over the extended reals.

  The kernel never forms the 8192 × 32000 logits `x · Wᵀ`: for each tile of 2048 rows it walks the 125 tiles of
  256 classes keeping, per row, a running maximum `m`, a running sum `l` of exponentials shifted by `m`, and the
  logit `t` at the row's label (an online log-sum-exp), and at the last class tile writes the row's negative
  log-likelihood `(m + log l) − t` and a flag saying whether the label is the ignore index −100; the host then
  averages the losses of the rows that count. The reference forms the logits, takes `log_softmax`, gathers the
  entry at the label, negates, masks the ignored rows and averages.

  Both are the same function of finite inputs whose labels are class indices below 32000 or the ignore index:
  after all 32000 classes the running maximum is the row maximum and the running sum the row's sum of shifted
  exponentials (rescaling by `exp (m − m')` moves a sum's shift from `m` to `m'`; the first tile starts from
  `exp (−∞ − m') · 0 = 0`), so `(m + log l) − logit = −((logit − m) − log l)`, the negated log-softmax entry; a
  label in range is never wrapped or out of bounds in the reference's gather, and the column equal to it is
  met exactly once by the kernel; the count of rows is the same whether summed as flags or as integers. Outside
  that label range the two differ (the reference wraps a negative index where the kernel picks nothing), which
  is why the precondition states it; finiteness is what makes the logits real numbers.

  The three frames are the generated ones (the reference's through its run); the ideal pass rewrote nothing.
-/
import proofs.«430946_j34849364640323_2_alg».proof.Defs
import proofs.«430946_j34849364640323_2_alg».proof.Proof.Gen.Kernel
import proofs.«430946_j34849364640323_2_alg».proof.Proof.Gen.Kernel.Frame
import proofs.«430946_j34849364640323_2_alg».proof.Proof.Gen.KernelIdeal
import proofs.«430946_j34849364640323_2_alg».proof.Proof.Gen.KernelIdeal.Frame
import proofs.«430946_j34849364640323_2_alg».proof.Proof.Gen.ReferenceIdeal
import proofs.«430946_j34849364640323_2_alg».proof.Proof.Gen.Pre_finite_inputs
import proofs.«430946_j34849364640323_2_alg».proof.Proof.PreFacts
import proofs.«430946_j34849364640323_2_alg».proof.Proof.KernelValue
import proofs.«430946_j34849364640323_2_alg».proof.Proof.RefStages
import proofs.«430946_j34849364640323_2_alg».proof.Proof.RefValue
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.Stages.run (F := Ideal) m ρ)

/-- Both programs end at the specification's loss of the arguments. -/
theorem algebraic : Cert.algebraic_KernelIdeal_ReferenceIdeal := by
  intro m ρ m' ρ' hpre hagree
  have hdec := fun c => Cert.PreFacts.decode _ _ _ (hpre c)
  refine ⟨fun c => fun _ => Cert.Spec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ (fun c => (hdec c).1) (fun c => (hdec c).2.1), ?_⟩
  refine (θ_run Cert.ReferenceIdeal.defs _ _).mono (fun _ h c => ⟨(h c).1.trans ?_, (h c).2⟩)
    (Cert.ReferenceIdeal.Stages.run (F := Ideal) m' ρ')
  rw [(hagree c).1, (hagree c).2.1, (hagree c).2.2]
  exact Cert.ReferenceIdeal.RefValue.ref_value _ _ _ (hdec c).1 (hdec c).2.1 (hdec c).2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
